-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S8192x8192 : Shape := ⟨2, ![8192, 8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn_part1 {F : FTy → Type} [FloatOps F] (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  main_v18

def fn {F : FTy → Type} [FloatOps F] (main_arg0 : FVec F S8192 .f32) (main_arg1 : FVec F S8192 .f32) (main_arg2 : FVec F S8192x8192 .f32) (main_arg3 : FVec F S8192x8192 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_v13 main_v16
-- ==== Kernel.lean ====
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩
abbrev S_ : Shape := ⟨0, ![]⟩
abbrev S1024x1 : Shape := ⟨2, ![1024, 1]⟩
abbrev S1x512 : Shape := ⟨2, ![1, 512]⟩
abbrev S1024x512 : Shape := ⟨2, ![1024, 512]⟩
abbrev S1024 : Shape := ⟨1, ![1024]⟩

abbrev nBuf : Space → Nat
  | .hbm => 39
  | .vmem => 18
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S8192x8192, .f32⟩
  | .hbm, ⟨3, _⟩ => ⟨S8192x8192, .f32⟩
  | .hbm, ⟨4, _⟩ => ⟨S8192x1, .f32⟩
  | .hbm, ⟨5, _⟩ => ⟨S1x8192, .f32⟩
  | .hbm, ⟨6, _⟩ => ⟨S8192x1, .f32⟩
  | .hbm, ⟨7, _⟩ => ⟨S1x8192, .f32⟩
  | .hbm, ⟨8, _⟩ => ⟨S8192x1, .f32⟩
  | .hbm, ⟨9, _⟩ => ⟨S8192x1, .f32⟩
  | .hbm, ⟨10, _⟩ => ⟨S8192x1, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8192, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S8192, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S1024x1, .f32⟩
  | .local _ .vmem, ⟨1, _⟩ => ⟨S1024x1, .f32⟩
  | .local _ .vmem, ⟨2, _⟩ => ⟨S1x512, .f32⟩
  | .local _ .vmem, ⟨3, _⟩ => ⟨S1x512, .f32⟩
  | .local _ .vmem, ⟨4, _⟩ => ⟨S1024x1, .f32⟩
  | .local _ .vmem, ⟨5, _⟩ => ⟨S1024x1, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4_0 : Ref sig .tc := ⟨.hbm, 8, rfl⟩
abbrev main_call0_v4_1 : Ref sig .tc := ⟨.hbm, 9, rfl⟩
abbrev main_call0_v4_2 : Ref sig .tc := ⟨.hbm, 10, rfl⟩
abbrev main_v0_1 : Ref sig .tc := ⟨.hbm, 11, rfl⟩
abbrev main_call0_cst : Ref sig .tc := ⟨.hbm, 12, rfl⟩
abbrev main_call0_v6 : Ref sig .tc := ⟨.hbm, 13, rfl⟩
abbrev main_call0_cst_0 : Ref sig .tc := ⟨.hbm, 14, rfl⟩
abbrev main_call0_v7 : Ref sig .tc := ⟨.hbm, 15, rfl⟩
abbrev main_call0_v8 : Ref sig .tc := ⟨.hbm, 16, rfl⟩
abbrev main_call0_cst_1 : Ref sig .tc := ⟨.hbm, 17, rfl⟩
abbrev main_call0_v9 : Ref sig .tc := ⟨.hbm, 18, rfl⟩
abbrev main_call0_cst_2 : Ref sig .tc := ⟨.hbm, 19, rfl⟩
abbrev main_call0_v10 : Ref sig .tc := ⟨.hbm, 20, rfl⟩
abbrev main_call0_v11 : Ref sig .tc := ⟨.hbm, 21, rfl⟩
abbrev main_call0_cst_3 : Ref sig .tc := ⟨.hbm, 22, rfl⟩
abbrev main_call0_v12 : Ref sig .tc := ⟨.hbm, 23, rfl⟩
abbrev main_call0_cst_4 : Ref sig .tc := ⟨.hbm, 24, rfl⟩
abbrev main_call0_v13 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_v0_0 : Ref sig .tc := ⟨.hbm, 29, rfl⟩
abbrev main_call0_cst_5 : Ref sig .tc := ⟨.hbm, 30, rfl⟩
abbrev main_call0_v18 : Ref sig .tc := ⟨.hbm, 31, rfl⟩
abbrev main_call0_v19 : Ref sig .tc := ⟨.hbm, 32, rfl⟩
abbrev main_call0_cst_6 : Ref sig .tc := ⟨.hbm, 33, rfl⟩
abbrev main_call0_v20 : Ref sig .tc := ⟨.hbm, 34, rfl⟩
abbrev main_call0_v21 : Ref sig .tc := ⟨.hbm, 35, rfl⟩
abbrev main_call0_cst_7 : Ref sig .tc := ⟨.hbm, 36, rfl⟩
abbrev main_call0_v22 : Ref sig .tc := ⟨.hbm, 37, rfl⟩
abbrev main_v0_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  shapeCasts_S8192_S8192x1 : S8192.ShapeCasts S8192x1
  shapeCasts_S8192_S1x8192 : S8192.ShapeCasts S1x8192
  shapeCasts_S8192x1_S8192 : S8192x1.ShapeCasts S8192
  reducesTo_S8192x1_S_d0_1 : S8192x1.ReducesTo [0, 1] S_
  h_S_ : 0 < S_.numel
  reducesTo_S8192_S_d0 : S8192.ReducesTo [0] S_
  inb_S1024x1_S1024x1_0_0 : ∀ a, (![0, 0] : Fin 2 → Nat) a + S1024x1.size a ≤ S1024x1.size a
  h_S1024x1 : 0 < S1024x1.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S1024x1_S1024x1 : S1024x1.ShapeCasts S1024x1
  broadcasts_S1x512_S1024x512 : S1x512.Broadcasts S1024x512
  broadcasts_S1024x1_S1024x512 : S1024x1.Broadcasts S1024x512
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S8192x1.size a
  hwx0_0 : ∀ i : grid0.Coords, EltTy.bits .f32 = 32 ∨ (Rect.block (s := S8192x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x8192.size a
  hwx0_1 : ∀ i : grid0.Coords, EltTy.bits .f32 = 32 ∨ (Rect.block (s := S1x8192) S1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S8192x8192.size a
  hwx0_4 : ∀ i : grid0.Coords, EltTy.bits .f32 = 32 ∨ (Rect.block (s := S8192x8192) S1024x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S8192x8192.size a
  hwx0_5 : ∀ i : grid0.Coords, EltTy.bits .f32 = 32 ∨ (Rect.block (s := S8192x8192) S1024x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S8192x1.size a
  hwx0_7 : ∀ i : grid0.Coords, EltTy.bits .f32 = 32 ∨ (Rect.block (s := S8192x1) S1024x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1.size a ≤ S8192x1.size a
  hwx0_8 : ∀ i : grid0.Coords, EltTy.bits .f32 = 32 ∨ (Rect.block (s := S8192x1) S1024x1.size (cc0_transform_8 i) (hinb0_8 i)).WholeWords (EltTy.packing .f32)

variable [Facts₀]

abbrev win0_0 : Pipeline.Window sig grid0 :=
  Pipeline.Window.ofSpec (Memref.whole main_call0_v0) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1024x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S1024x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v4_0) S1024x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_call0_v4_1) S1024x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_call0_v4_2) S1024x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8192 : Shape := ⟨1, ![8192]⟩
abbrev S8192x8192 : Shape := ⟨2, ![8192, 8192]⟩
abbrev S1x8192 : Shape := ⟨2, ![1, 8192]⟩
abbrev S8192x1 : Shape := ⟨2, ![8192, 1]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S8192x8192, .f32⟩
  | .hbm, ⟨3, _⟩ => ⟨S8192x8192, .f32⟩
  | .hbm, ⟨4, _⟩ => ⟨S1x8192, .f32⟩
  | .hbm, ⟨5, _⟩ => ⟨S8192x1, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S8192x8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S8192x8192, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S8192_S8192x1_0 : S8192.BroadcastsInDim S8192x1 (![0] : Fin 1 → Fin S8192x1.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  reducesTo_S8192x8192_S8192_d1 : S8192x8192.ReducesTo [1] S8192
  h_S_ : 0 < S_.numel
  reducesTo_S8192_S_d0 : S8192.ReducesTo [0] S_
  reducesTo_S8192x8192_S_d0_1 : S8192x8192.ReducesTo [0, 1] S_

variable [Facts₀]

class Facts : Prop extends Facts₀ where

variable [Facts]
-- ==== Proof.Found.lean ====
/-
  What the kernel body leaves in its three output blocks, as values of the blocks it loads.

  The body has two control cases. At the first column tile of a row tile it stores zeros into the three
  accumulators and then adds this tile's row sums to what it reads back (the zeros); at every other column tile it
  adds this tile's row sums to what the previous tile left. In each case every accumulator ends wholly overwritten
  by ONE last store, so what it holds is that store's value: the coupling accumulator plus the row sums of
  K · ((alive_col · alive_row) · dist) · sin(phases_row − phases_col); the second plus the row sums of K · K; the
  third plus the row sums of |K|. Stated for any float instance.
-/
import proofs.«116417_j34110630265364_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Found

open Cert.KernelIdeal Cert.KernelIdeal.Gen

variable {F : FTy → Type} [FloatOps F]

theorem hz : (![0, 0] : Fin 2 → Nat) = fun _ => 0 := funext fun a => by fin_cases a <;> rfl

variable (c : Dev nD) (i : grid0.Coords)
  (a2 : Memref sig .tc .vmem S1024x1 .f32) (h2 : a2.IsWhole) (a3 : Memref sig .tc .vmem S1x512 .f32) (h3 : a3.IsWhole)
  (a4 : Memref sig .tc .vmem S1024x1 .f32) (h4 : a4.IsWhole) (a5 : Memref sig .tc .vmem S1x512 .f32) (h5 : a5.IsWhole)
  (a6 : Memref sig .tc .vmem S1024x512 .f32) (h6 : a6.IsWhole) (a7 : Memref sig .tc .vmem S1024x512 .f32) (h7 : a7.IsWhole)
  (a8 : Memref sig .tc .vmem S1024x1 .f32) (h8 : a8.IsWhole) (a9 : Memref sig .tc .vmem S1024x1 .f32) (h9 : a9.IsWhole)
  (a10 : Memref sig .tc .vmem S1024x1 .f32) (h10 : a10.IsWhole)
  (x0 : Vec F S1024x1 .f32) (x1 : Vec F S1x512 .f32) (x2 : Vec F S1024x1 .f32) (x3 : Vec F S1x512 .f32)
  (x4 : Vec F S1024x512 .f32) (x5 : Vec F S1024x512 .f32)

/-- Away from a row tile's first column tile the coupling accumulator ends at what it held plus this tile's row sums. -/
theorem out_B_6 (hc : ¬cond0_0 i) (xo6 xo7 xo8 : Vec F S1024x1 .f32) :
    out0_B_6 c i a2 h2 a3 h3 a4 h4 a5 h5 a6 h6 a7 h7 a8 h8 a9 h9 a10 h10 hc x0 x1 x2 x3 x4 x5 xo6 xo7 xo8 = k0_pay6 x1 x0 x2 x3 x4 x5 xo6 := by
  unfold out0_B_6
  rw [View.read_writes_eq_canon _ _ _ (cover0_B_6 c i a2 h2 a3 h3 a4 h4 a5 h5 a6 h6 a7 h7 a8 h8 a9 h9 a10 h10 hc x0 x1 x2 x3 x4 x5 xo6 xo7 xo8)]
  unfold kernelRun0_B
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, View.ld_unit_zero (S := S1024x1) hz, View.ld_unit_zero (S := S1x512) hz, View.ld_unit_zero (S := S1024x512) hz]

/-- Away from the first column tile the squares' accumulator ends at what it held plus the row sums of K · K. -/
theorem out_B_7 (hc : ¬cond0_0 i) (xo6 xo7 xo8 : Vec F S1024x1 .f32) :
    out0_B_7 c i a2 h2 a3 h3 a4 h4 a5 h5 a6 h6 a7 h7 a8 h8 a9 h9 a10 h10 hc x0 x1 x2 x3 x4 x5 xo6 xo7 xo8 = k0_pay1 (k0_pay7 xo7) (k0_pay8 x5) := by
  unfold out0_B_7
  rw [View.read_writes_eq_canon _ _ _ (cover0_B_7 c i a2 h2 a3 h3 a4 h4 a5 h5 a6 h6 a7 h7 a8 h8 a9 h9 a10 h10 hc x0 x1 x2 x3 x4 x5 xo6 xo7 xo8)]
  unfold kernelRun0_B
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, View.ld_unit_zero (S := S1024x1) hz, View.ld_unit_zero (S := S1x512) hz, View.ld_unit_zero (S := S1024x512) hz]

/-- Away from the first column tile the absolute values' accumulator ends at what it held plus the row sums of |K|. -/
theorem out_B_8 (hc : ¬cond0_0 i) (xo6 xo7 xo8 : Vec F S1024x1 .f32) :
    out0_B_8 c i a2 h2 a3 h3 a4 h4 a5 h5 a6 h6 a7 h7 a8 h8 a9 h9 a10 h10 hc x0 x1 x2 x3 x4 x5 xo6 xo7 xo8 = k0_pay2 x5 xo8 := by
  unfold out0_B_8
  rw [View.read_writes_eq_canon _ _ _ (cover0_B_8 c i a2 h2 a3 h3 a4 h4 a5 h5 a6 h6 a7 h7 a8 h8 a9 h9 a10 h10 hc x0 x1 x2 x3 x4 x5 xo6 xo7 xo8)]
  unfold kernelRun0_B
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, View.ld_unit_zero (S := S1024x1) hz, View.ld_unit_zero (S := S1x512) hz, View.ld_unit_zero (S := S1024x512) hz]

/-- At a row tile's first column tile the coupling accumulator ends at zero plus this tile's row sums: the zeros just stored are what the sum reads back. -/
theorem out_A_6 (hc : cond0_0 i) :
    out0_A_6 c i a2 h2 a3 h3 a4 h4 a5 h5 a6 h6 a7 h7 a8 h8 a9 h9 a10 h10 hc x0 x1 x2 x3 x4 x5 = k0_pay6 x1 x0 x2 x3 x4 x5 (k0_pay3 (F := F)) := by
  unfold out0_A_6
  rw [View.read_writes_eq_canon _ _ _ (cover0_A_6 c i a2 h2 a3 h3 a4 h4 a5 h5 a6 h6 a7 h7 a8 h8 a9 h9 a10 h10 hc x0 x1 x2 x3 x4 x5)]
  unfold kernelRun0_A
  dsimp only
  sl_unfold_words
  rw [View.canon_cons_unit_zero (S := S1024x1) hz]
  simp only [View.readAt_eq_ld, h2.read_unread, h3.read_unread, h4.read_unread, h5.read_unread, h6.read_unread, h7.read_unread, h8.read_unread, h9.read_unread, h10.read_unread, View.ld_unit_zero (S := S1024x1) hz, View.ld_unit_zero (S := S1x512) hz, View.ld_unit_zero (S := S1024x512) hz, View.readCov_unit_zero (S := S1024x1) _ hz]

/-- At the first column tile the squares' accumulator ends at zero plus the row sums of K · K. -/
theorem out_A_7 (hc : cond0_0 i) :
    out0_A_7 c i a2 h2 a3 h3 a4 h4 a5 h5 a6 h6 a7 h7 a8 h8 a9 h9 a10 h10 hc x0 x1 x2 x3 x4 x5 = k0_pay1 (k0_pay7 (k0_pay4 (F := F))) (k0_pay8 x5) := by
  unfold out0_A_7
  rw [View.read_writes_eq_canon _ _ _ (cover0_A_7 c i a2 h2 a3 h3 a4 h4 a5 h5 a6 h6 a7 h7 a8 h8 a9 h9 a10 h10 hc x0 x1 x2 x3 x4 x5)]
  unfold kernelRun0_A
  dsimp only
  sl_unfold_words
  rw [View.canon_cons_unit_zero (S := S1024x1) hz]
  simp only [View.readAt_eq_ld, h2.read_unread, h3.read_unread, h4.read_unread, h5.read_unread, h6.read_unread, h7.read_unread, h8.read_unread, h9.read_unread, h10.read_unread, View.ld_unit_zero (S := S1024x1) hz, View.ld_unit_zero (S := S1x512) hz, View.ld_unit_zero (S := S1024x512) hz, View.readCov_unit_zero (S := S1024x1) _ hz]

/-- At the first column tile the absolute values' accumulator ends at zero plus the row sums of |K|. -/
theorem out_A_8 (hc : cond0_0 i) :
    out0_A_8 c i a2 h2 a3 h3 a4 h4 a5 h5 a6 h6 a7 h7 a8 h8 a9 h9 a10 h10 hc x0 x1 x2 x3 x4 x5 = k0_pay2 x5 (k0_pay5 (F := F)) := by
  unfold out0_A_8
  rw [View.read_writes_eq_canon _ _ _ (cover0_A_8 c i a2 h2 a3 h3 a4 h4 a5 h5 a6 h6 a7 h7 a8 h8 a9 h9 a10 h10 hc x0 x1 x2 x3 x4 x5)]
  unfold kernelRun0_A
  dsimp only
  sl_unfold_words
  rw [View.canon_cons_unit_zero (S := S1024x1) hz]
  simp only [View.readAt_eq_ld, h2.read_unread, h3.read_unread, h4.read_unread, h5.read_unread, h6.read_unread, h7.read_unread, h8.read_unread, h9.read_unread, h10.read_unread, View.ld_unit_zero (S := S1024x1) hz, View.ld_unit_zero (S := S1x512) hz, View.ld_unit_zero (S := S1024x512) hz, View.readCov_unit_zero (S := S1024x1) _ hz]

end Cert.KernelIdeal.Found

end
-- ==== Proof.LibKeepdims.lean ====
/-
  Column vectors kept as matrices of one column, read at an index given by coordinates.

  A sum along a matrix's rows taken with the reduced axis kept (`jnp.sum(axis=1, keepdims=True)`) is a lane sum into
  a vector followed by a cast of `[a]` to `[a, 1]`, and such a column meets a matrix through a broadcast of
  `[a, 1]` to `[a, b]`. Each reads, at coordinates, as the operand at the coordinates one expects:
    • a column `[a, 1]` broadcast to `[a, b]`, at `(p, c)`, is the column at row `p`;
    • a vector `[a]` cast to `[a, 1]`, at `(i, u)`, is the vector at `i`; and cast back, at `i`, the column at `(i, 0)`;
    • at the ideal values, the sum of a matrix `[a, b]` along axis 1, at row `r`, is the sum over `q` of the entries `(r, q)`;
    • a sum over the index set of `[a, 1]` is the sum over its `a` rows, and over that of `[a]` the sum over its coordinate.
  General in the extents; nothing here mentions a particular program.
-/
import Idealize.ShloMosaic.Lib.ValueLayout
import Idealize.ShloMosaic.PureOps.Ideal.Laws

open scoped BigOperators

namespace Cert.Keepdims

open Idealize.ShloMosaic Idealize.ShloMosaic.ValueIdx

variable {α : Type}

/-- A column `[a, 1]` broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- At the ideal values the sum of a matrix along axis 1 into a vector, read at row `r`, is the sum of that row's
    entries (the accumulator word being the sum's neutral element). -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ v acc h hφ hacc (ix1 r) = ∑ q : Fin b, v (ix2 r q) :=
  (Ideal.multiReduction_add_single v acc h hφ hacc (ix1 r)).trans
    (Finset.sum_congr rfl fun q _ => congrArg v (funext fun ax => Fin.ext (by
      match ax with
      | ⟨0, _⟩ => rfl
      | ⟨1, _⟩ => rfl)))

/-- A sum over the index set of a column `[a, 1]` is the sum over its rows. -/
theorem sum_idx_a1 {M : Type*} [AddCommMonoid M] {a : ℕ} (f : (⟨2, ![a, 1]⟩ : Shape).Idx → M) :
    ∑ j, f j = ∑ i : Fin a, f (ix2 i (0 : Fin 1)) := by
  rw [sum_idx2]
  exact Finset.sum_congr rfl fun i _ => Fin.sum_univ_one _

/-- A sum over the index set of a vector `[a]` is the sum over its coordinate. -/
theorem sum_idx_a {M : Type*} [AddCommMonoid M] {a : ℕ} (f : (⟨1, ![a]⟩ : Shape).Idx → M) :
    ∑ j, f j = ∑ i : Fin a, f (ix1 i) := by
  refine (Equiv.sum_comp (⟨fun i => ix1 i, fun j => j 0, fun _ => rfl, fun j => (eq_ix1 j).symm⟩ :
    Fin a ≃ (⟨1, ![a]⟩ : Shape).Idx) f).symm

end Cert.Keepdims
-- ==== Proof.Payload.lean ====
/-
  The kernel body's stored values, read at one row at the ideal values.

  Each of the three accumulators is a column of 1024 rows. Over the extended reals, at row `r` of a tile whose
  blocks are `phc, alc` (columns of the row tile), `phr, alr` (rows of the column tile) and `D, K` (the tile of the two
  matrices), the body stores
    • coupling:   acc r + Σ_q K(r,q) · ((alc r · alr q) · D(r,q)) · sin(phr q − phc r),
    • squares:    acc r + Σ_q K(r,q) · K(r,q),
    • magnitudes: acc r + Σ_q max (K(r,q)) (−K(r,q)),
  the sums over the tile's 512 columns, and the reset stores the real number 0. The broadcasts and the casts between a
  vector and a one-column matrix read through at coordinates; the lane sum into the zero accumulator is the plain sum.
-/
import proofs.«116417_j34110630265364_1_alg».proof.Proof.Gen.KernelIdeal.Skeleton
import proofs.«116417_j34110630265364_1_alg».proof.Proof.LibKeepdims

noncomputable section

open Idealize.ShloMosaic Idealize.ShloMosaic.ValueIdx
open scoped BigOperators

namespace Cert.KernelIdeal.Pay

open Cert.KernelIdeal Cert.KernelIdeal.Gen Cert.Keepdims

/-- The coupling accumulator's stored value at row `r`. -/
theorem pay6_apply (phr : Vec Ideal S1x512 .f32) (phc alc : Vec Ideal S1024x1 .f32) (alr : Vec Ideal S1x512 .f32)
    (D K : Vec Ideal S1024x512 .f32) (acc : Vec Ideal S1024x1 .f32) (r : Fin 1024) (u : Fin 1) :
    k0_pay6 phr phc alc alr D K acc (ix2 r u)
      = acc (ix2 r u) + ∑ q : Fin 512,
          K (ix2 r q) * ((alc (ix2 r (0 : Fin 1)) * alr (ix2 (0 : Fin 1) q)) * D (ix2 r q))
            * Ideal.sin (phr (ix2 (0 : Fin 1) q) - phc (ix2 r (0 : Fin 1))) := by
  unfold k0_pay6
  refine (addf_apply _ _ _).trans ?_
  refine congrArg₂ (· + ·) (congrFun (shapeCast_self acc _) _) ?_
  refine (shapeCast_a_a1_apply _ _ r u).trans ?_
  refine (laneSum_apply _ _ _ _ _ r).trans ?_
  refine Finset.sum_congr rfl fun q _ => ?_
  have e7 : broadcastTo S1024x512 (shapeCast S1x512 phr shapeCasts_S1x512_S1x512) broadcasts_S1x512_S1024x512 (ix2 r q)
      = phr (ix2 (0 : Fin 1) q) := (broadcastTo_1b_ab_apply _ _ r q).trans (congrFun (shapeCast_self phr _) _)
  have e8 : broadcastTo S1024x512 (shapeCast S1024x1 phc shapeCasts_S1024x1_S1024x1) broadcasts_S1024x1_S1024x512 (ix2 r q)
      = phc (ix2 r (0 : Fin 1)) := (broadcastTo_a1_ab_apply _ _ r q).trans (congrFun (shapeCast_self phc _) _)
  have e14 : broadcastTo S1024x512 (shapeCast S1024x1 alc shapeCasts_S1024x1_S1024x1) broadcasts_S1024x1_S1024x512 (ix2 r q)
      = alc (ix2 r (0 : Fin 1)) := (broadcastTo_a1_ab_apply _ _ r q).trans (congrFun (shapeCast_self alc _) _)
  have e15 : broadcastTo S1024x512 (shapeCast S1x512 alr shapeCasts_S1x512_S1x512) broadcasts_S1x512_S1024x512 (ix2 r q)
      = alr (ix2 (0 : Fin 1) q) := (broadcastTo_1b_ab_apply _ _ r q).trans (congrFun (shapeCast_self alr _) _)
  show K (ix2 r q) * ((_ * _) * D (ix2 r q)) * Ideal.sin (_ - _) = _
  rw [e7, e8, e14, e15]

/-- The squares' accumulator's stored value at row `r`. -/
theorem pay7_apply (K : Vec Ideal S1024x512 .f32) (acc : Vec Ideal S1024x1 .f32) (r : Fin 1024) (u : Fin 1) :
    k0_pay1 (k0_pay7 acc) (k0_pay8 K) (ix2 r u) = acc (ix2 r u) + ∑ q : Fin 512, K (ix2 r q) * K (ix2 r q) := by
  unfold k0_pay1 k0_pay7 k0_pay8
  refine (addf_apply _ _ _).trans ?_
  refine congrArg₂ (· + ·) (congrFun (shapeCast_self acc _) _) ?_
  refine (shapeCast_a_a1_apply _ _ r u).trans ?_
  exact laneSum_apply _ _ _ _ _ r

/-- The magnitudes' accumulator's stored value at row `r`. -/
theorem pay8_apply (K : Vec Ideal S1024x512 .f32) (acc : Vec Ideal S1024x1 .f32) (r : Fin 1024) (u : Fin 1) :
    k0_pay2 K acc (ix2 r u) = acc (ix2 r u) + ∑ q : Fin 512, max (K (ix2 r q)) (-(K (ix2 r q))) := by
  unfold k0_pay2
  refine (addf_apply _ _ _).trans ?_
  refine congrArg₂ (· + ·) (congrFun (shapeCast_self acc _) _) ?_
  refine (shapeCast_a_a1_apply _ _ r u).trans ?_
  exact laneSum_apply _ _ _ _ _ r

/-- The three reset stores hold the real number 0 in every row. -/
theorem pay3_apply (j : S1024x1.Idx) : (k0_pay3 (F := Ideal)) j = 0 := Ideal.ofBits_zero_f32
theorem pay4_apply (j : S1024x1.Idx) : (k0_pay4 (F := Ideal)) j = 0 := Ideal.ofBits_zero_f32
theorem pay5_apply (j : S1024x1.Idx) : (k0_pay5 (F := Ideal)) j = 0 := Ideal.ofBits_zero_f32

end Cert.KernelIdeal.Pay

end
-- ==== Proof.Blocks.lean ====
/-
  The input windows' blocks, read at tile coordinates, as entries of the argument arrays.

  The grid's 128 points run over 8 row tiles of 1024 rows and, inside each, 16 column tiles of 512 columns: point `t`
  is row tile `t / 16`, column tile `t % 16`. At point `t` the two matrices' blocks are the tile itself, so entry
  `(r, q)` of a block is entry `(1024·(t/16) + r, 512·(t%16) + q)` of the matrix. The two vectors reach the kernel
  twice each, reshaped by the host before the launch into a column `[8192, 1]` (blocked by row tile) and a row
  `[1, 8192]` (blocked by column tile); a reshape keeps the row-major position, so those blocks read the vector at
  `1024·(t/16) + r` and at `512·(t%16) + q`. For any float instance.
-/
import proofs.«116417_j34110630265364_1_alg».proof.Proof.Gen.KernelIdeal.Frame
import proofs.«116417_j34110630265364_1_alg».proof.Proof.LibKeepdims
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.Keepdims

variable {F : FTy → Type} [FloatOps F]
variable (m : (ℓ : Loc nD τ sig) → Buf (Elt F) ℓ)

/-- Which block of its array each input window holds at point `t`: decided over the 128 points. -/
theorem idx_facts : ∀ t : Fin cfg0.N,
    (win0_0.index t 0 = t.val / 16 ∧ win0_0.index t 1 = 0) ∧ (win0_1.index t 0 = 0 ∧ win0_1.index t 1 = t.val % 16)
    ∧ (win0_2.index t 0 = t.val / 16 ∧ win0_2.index t 1 = 0) ∧ (win0_3.index t 0 = 0 ∧ win0_3.index t 1 = t.val % 16)
    ∧ (win0_4.index t 0 = t.val / 16 ∧ win0_4.index t 1 = t.val % 16)
    ∧ (win0_5.index t 0 = t.val / 16 ∧ win0_5.index t 1 = t.val % 16) :=
  (by decide +kernel : ∀ t : Fin grid0.N, _)

/-! ## The arrays the host writes before the launch: the two vectors as a column and as a row -/

theorem V_phases_col (c : Dev nD) : (V m c main_call0_v0 : Vec F S8192x1 .f32)
    = shapeCast S8192x1 (m ((c : Thread nD τ).loc main_arg0)) shapeCasts_S8192_S8192x1 := by
  show StableHlo.after hostOps0 (fun b => m (c, b)) (Proc.devRef .tc main_call0_v0) = _
  after_results; rfl
theorem V_phases_row (c : Dev nD) : (V m c main_call0_v1 : Vec F S1x8192 .f32)
    = shapeCast S1x8192 (m ((c : Thread nD τ).loc main_arg0)) shapeCasts_S8192_S1x8192 := by
  show StableHlo.after hostOps0 (fun b => m (c, b)) (Proc.devRef .tc main_call0_v1) = _
  after_results; rfl
theorem V_alive_col (c : Dev nD) : (V m c main_call0_v2 : Vec F S8192x1 .f32)
    = shapeCast S8192x1 (m ((c : Thread nD τ).loc main_arg1)) shapeCasts_S8192_S8192x1 := by
  show StableHlo.after hostOps0 (fun b => m (c, b)) (Proc.devRef .tc main_call0_v2) = _
  after_results; rfl
theorem V_alive_row (c : Dev nD) : (V m c main_call0_v3 : Vec F S1x8192 .f32)
    = shapeCast S1x8192 (m ((c : Thread nD τ).loc main_arg1)) shapeCasts_S8192_S1x8192 := by
  show StableHlo.after hostOps0 (fun b => m (c, b)) (Proc.devRef .tc main_call0_v3) = _
  after_results; rfl

/-! ## The blocks at tile coordinates -/

/-- The phases column's block: row `r` of row tile `t / 16`. -/
theorem blk0_apply (c : Dev nD) (t : Fin cfg0.N) (r : Fin 1024) (u : Fin 1) (i : Fin 8192)
    (hi : i.val = 1024 * (t.val / 16) + r.val) :
    (iblk m c 0 t : Vec F S1024x1 .f32) (ix2 r u) = m ((c : Thread nD τ).loc main_arg0) (ix1 i) := by
  unfold iblk
  rw [View.read_apply]
  show V m c main_call0_v0 _ = _
  rw [V_phases_col]
  refine (congrArg (shapeCast S8192x1 (m ((c : Thread nD τ).loc main_arg0)) shapeCasts_S8192_S8192x1)
    (funext fun a => Fin.ext ?_ : _ = ix2 i (0 : Fin 1))).trans (shapeCast_a_a1_apply _ _ i 0)
  have hu : u.val = 0 := by omega
  match a with
  | ⟨0, _⟩ => show win0_0.index t 0 * 1024 + 1 * r.val = i.val; rw [(idx_facts t).1.1, hi]; omega
  | ⟨1, _⟩ => show win0_0.index t 1 * 1 + 1 * u.val = 0; rw [(idx_facts t).1.2, hu]

/-- The phases row's block: column `q` of column tile `t % 16`. -/
theorem blk1_apply (c : Dev nD) (t : Fin cfg0.N) (u : Fin 1) (q : Fin 512) (k : Fin 8192)
    (hk : k.val = 512 * (t.val % 16) + q.val) :
    (iblk m c 1 t : Vec F S1x512 .f32) (ix2 u q) = m ((c : Thread nD τ).loc main_arg0) (ix1 k) := by
  unfold iblk
  rw [View.read_apply]
  show V m c main_call0_v1 _ = _
  rw [V_phases_row]
  refine (congrArg (shapeCast S1x8192 (m ((c : Thread nD τ).loc main_arg0)) shapeCasts_S8192_S1x8192)
    (funext fun a => Fin.ext ?_ : _ = ix2 (0 : Fin 1) k)).trans (shapeCast_a_1a_apply _ _ 0 k)
  have hu : u.val = 0 := by omega
  match a with
  | ⟨0, _⟩ => show win0_1.index t 0 * 1 + 1 * u.val = 0; rw [(idx_facts t).2.1.1, hu]
  | ⟨1, _⟩ => show win0_1.index t 1 * 512 + 1 * q.val = k.val; rw [(idx_facts t).2.1.2, hk]; omega

/-- The alive column's block: row `r` of row tile `t / 16`. -/
theorem blk2_apply (c : Dev nD) (t : Fin cfg0.N) (r : Fin 1024) (u : Fin 1) (i : Fin 8192)
    (hi : i.val = 1024 * (t.val / 16) + r.val) :
    (iblk m c 2 t : Vec F S1024x1 .f32) (ix2 r u) = m ((c : Thread nD τ).loc main_arg1) (ix1 i) := by
  unfold iblk
  rw [View.read_apply]
  show V m c main_call0_v2 _ = _
  rw [V_alive_col]
  refine (congrArg (shapeCast S8192x1 (m ((c : Thread nD τ).loc main_arg1)) shapeCasts_S8192_S8192x1)
    (funext fun a => Fin.ext ?_ : _ = ix2 i (0 : Fin 1))).trans (shapeCast_a_a1_apply _ _ i 0)
  have hu : u.val = 0 := by omega
  match a with
  | ⟨0, _⟩ => show win0_2.index t 0 * 1024 + 1 * r.val = i.val; rw [(idx_facts t).2.2.1.1, hi]; omega
  | ⟨1, _⟩ => show win0_2.index t 1 * 1 + 1 * u.val = 0; rw [(idx_facts t).2.2.1.2, hu]

/-- The alive row's block: column `q` of column tile `t % 16`. -/
theorem blk3_apply (c : Dev nD) (t : Fin cfg0.N) (u : Fin 1) (q : Fin 512) (k : Fin 8192)
    (hk : k.val = 512 * (t.val % 16) + q.val) :
    (iblk m c 3 t : Vec F S1x512 .f32) (ix2 u q) = m ((c : Thread nD τ).loc main_arg1) (ix1 k) := by
  unfold iblk
  rw [View.read_apply]
  show V m c main_call0_v3 _ = _
  rw [V_alive_row]
  refine (congrArg (shapeCast S1x8192 (m ((c : Thread nD τ).loc main_arg1)) shapeCasts_S8192_S1x8192)
    (funext fun a => Fin.ext ?_ : _ = ix2 (0 : Fin 1) k)).trans (shapeCast_a_1a_apply _ _ 0 k)
  have hu : u.val = 0 := by omega
  match a with
  | ⟨0, _⟩ => show win0_3.index t 0 * 1 + 1 * u.val = 0; rw [(idx_facts t).2.2.2.1.1, hu]
  | ⟨1, _⟩ => show win0_3.index t 1 * 512 + 1 * q.val = k.val; rw [(idx_facts t).2.2.2.1.2, hk]; omega

/-- The distance mask's block is its tile. -/
theorem blk4_apply (c : Dev nD) (t : Fin cfg0.N) (r : Fin 1024) (q : Fin 512) (i k : Fin 8192)
    (hi : i.val = 1024 * (t.val / 16) + r.val) (hk : k.val = 512 * (t.val % 16) + q.val) :
    (iblk m c 4 t : Vec F S1024x512 .f32) (ix2 r q) = m ((c : Thread nD τ).loc main_arg2) (ix2 i k) := by
  unfold iblk
  rw [View.read_apply]
  show V m c main_arg2 _ = _
  rw [V_main_arg2]
  refine congrArg (m ((c : Thread nD τ).loc main_arg2)) (funext fun a => Fin.ext ?_)
  match a with
  | ⟨0, _⟩ => show win0_4.index t 0 * 1024 + 1 * r.val = i.val; rw [(idx_facts t).2.2.2.2.1.1, hi]; omega
  | ⟨1, _⟩ => show win0_4.index t 1 * 512 + 1 * q.val = k.val; rw [(idx_facts t).2.2.2.2.1.2, hk]; omega

/-- The coupling matrix's block is its tile. -/
theorem blk5_apply (c : Dev nD) (t : Fin cfg0.N) (r : Fin 1024) (q : Fin 512) (i k : Fin 8192)
    (hi : i.val = 1024 * (t.val / 16) + r.val) (hk : k.val = 512 * (t.val % 16) + q.val) :
    (iblk m c 5 t : Vec F S1024x512 .f32) (ix2 r q) = m ((c : Thread nD τ).loc main_arg3) (ix2 i k) := by
  unfold iblk
  rw [View.read_apply]
  show V m c main_arg3 _ = _
  rw [V_main_arg3]
  refine congrArg (m ((c : Thread nD τ).loc main_arg3)) (funext fun a => Fin.ext ?_)
  match a with
  | ⟨0, _⟩ => show win0_5.index t 0 * 1024 + 1 * r.val = i.val; rw [(idx_facts t).2.2.2.2.2.1, hi]; omega
  | ⟨1, _⟩ => show win0_5.index t 1 * 512 + 1 * q.val = k.val; rw [(idx_facts t).2.2.2.2.2.2, hk]; omega

end Cert.KernelIdeal.Blocks

end
-- ==== Proof.TileSums.lean ====
/-
  Finite sums regrouped by tiles, over any commutative additive monoid.

  A table indexed by two bounded coordinates is extended by zero to all pairs of naturals, so that a tile's
  coordinates (block index × block size + offset) are plain natural-number arithmetic. The one law: the sums over
  `n` consecutive tiles of width `b` add up to the sum over the first `b * n` naturals. With it a row's sum taken
  sixteen column tiles at a time is the row's whole sum.

  The second half is the running sum itself. The grid's point `n` is row tile `n / 16`, column tile `n % 16`, the
  tiles 1024 rows by 512 columns. An accumulator that restarts from zero at each row tile's first column tile and
  otherwise adds the tile's row sum to what the point before left holds, after point `n`, the sum over the first
  `n % 16 + 1` column tiles of its row: by induction on the point.
-/
import Mathlib.Algebra.BigOperators.Fin
import Mathlib.Algebra.BigOperators.Intervals

open Finset

namespace Cert.Tiles

variable {M : Type*} [AddCommMonoid M]

/-- A table over `Fin a × Fin b`, read at any two naturals: zero outside the table. -/
def ext2 {a b : ℕ} (f : Fin a → Fin b → M) (i k : ℕ) : M :=
  if h : i < a ∧ k < b then f ⟨i, h.1⟩ ⟨k, h.2⟩ else 0

/-- Inside the table the extension is the table. -/
theorem ext2_mk {a b : ℕ} (f : Fin a → Fin b → M) {i k : ℕ} (hi : i < a) (hk : k < b) :
    ext2 f i k = f ⟨i, hi⟩ ⟨k, hk⟩ := dif_pos ⟨hi, hk⟩

theorem ext2_val {a b : ℕ} (f : Fin a → Fin b → M) (i : Fin a) (k : Fin b) : ext2 f i.val k.val = f i k :=
  ext2_mk f i.isLt k.isLt

/-- `n` consecutive tiles of width `b` add up to the prefix of length `b * n`. -/
theorem sum_tiles (g : ℕ → M) (b : ℕ) :
    ∀ n : ℕ, ∑ J ∈ range n, ∑ q ∈ range b, g (b * J + q) = ∑ k ∈ range (b * n), g k
  | 0 => by simp
  | n + 1 => by
    rw [sum_range_succ, sum_tiles g b n, Nat.mul_succ, sum_range_add]

/-- A sum over `Fin n` of a function of the value is the sum over `range n`. -/
theorem sum_fin_val (g : ℕ → M) (n : ℕ) : ∑ k : Fin n, g k.val = ∑ k ∈ range n, g k :=
  (Finset.sum_range g).symm

/-- A row of the table summed tile by tile (`n` tiles of width `b` filling the row) is the row's sum. -/
theorem row_tiles {a w : ℕ} (f : Fin a → Fin w → M) (i : Fin a) (b n : ℕ) (hw : b * n = w) :
    ∑ J ∈ range n, ∑ q ∈ range b, ext2 f i.val (b * J + q) = ∑ k : Fin w, f i k := by
  rw [sum_tiles (fun k => ext2 f i.val k) b n, hw, ← sum_fin_val]
  exact Finset.sum_congr rfl fun k _ => ext2_val f i k

/-- Row `r` of row tile `n / 16` summed over column tile `n % 16` (tiles of 1024 rows by 512 columns). -/
def tile {a w : ℕ} (f : Fin a → Fin w → M) (n r : ℕ) : M :=
  ∑ q ∈ range 512, ext2 f (1024 * (n / 16) + r) (512 * (n % 16) + q)

/-- THE RUNNING SUM. If `out` restarts as `0 + tile` where `n % 16 = 0` and is `out (n - 1) + tile` elsewhere, then
    after point `n` it is the sum over the column tiles `0 … n % 16` of its row in row tile `n / 16`. The row is given
    by any index `x` with a position `ρ x` inside the tile. -/
theorem acc_closed {a w : ℕ} (f : Fin a → Fin w → M) (N : ℕ) {X : Type*} (ρ : X → ℕ) (out : (n : ℕ) → n < N → X → M)
    (hA : ∀ (n : ℕ) (hn : n < N) (x : X), n % 16 = 0 → out n hn x = 0 + tile f n (ρ x))
    (hB : ∀ (n : ℕ) (hn : n < N) (x : X), ¬ n % 16 = 0 →
      out n hn x = out (n - 1) (Nat.lt_of_le_of_lt (Nat.sub_le _ _) hn) x + tile f n (ρ x)) :
    ∀ (n : ℕ) (hn : n < N) (x : X),
      out n hn x = ∑ J ∈ range (n % 16 + 1), ∑ q ∈ range 512, ext2 f (1024 * (n / 16) + ρ x) (512 * J + q)
  | 0, hn, x => by
    rw [hA 0 hn x rfl, zero_add]
    show tile f 0 (ρ x) = ∑ J ∈ range 1, _
    rw [sum_range_one]
    rfl
  | n + 1, hn, x => by
    by_cases h0 : (n + 1) % 16 = 0
    · rw [hA (n + 1) hn x h0, zero_add]
      unfold tile
      rw [h0, sum_range_one]
    · have h1 : (n + 1) / 16 = n / 16 := by omega
      have h2 : (n + 1) % 16 = n % 16 + 1 := by omega
      rw [hB (n + 1) hn x h0]
      show out n _ x + tile f (n + 1) (ρ x) = _
      rw [acc_closed f N ρ out hA hB n _ x]
      unfold tile
      rw [h1, h2, sum_range_succ (fun J => ∑ q ∈ range 512, ext2 f (1024 * (n / 16) + ρ x) (512 * J + q)) (n % 16 + 1)]

end Cert.Tiles
-- ==== Proof.Invariant.lean ====
/-
  What the three accumulators hold after each grid point, at the ideal values.

  Write ph, al for the two vectors and D, K for the two matrices. The three tables summed are
    T6 i k = K i k · ((al i · al k) · D i k) · sin (ph k − ph i),   T7 i k = K i k · K i k,   T8 i k = max (K i k) (−K i k).
  At point `t` (row tile t/16, column tile t%16) the body adds to each accumulator's row `r` the sum of row
  1024·(t/16) + r of its table over the column tile: the blocks it loads are the tile's entries of the four arrays.
  The first column tile of a row tile starts from the zeros just stored, every other from what the point before left.
  So after point `n` row `r` holds the table's row summed over column tiles 0 … n%16 (the running sum of the algebra
  module, by induction on the point).
-/
import proofs.«116417_j34110630265364_1_alg».proof.Proof.Found
import proofs.«116417_j34110630265364_1_alg».proof.Proof.Payload
import proofs.«116417_j34110630265364_1_alg».proof.Proof.Blocks
import proofs.«116417_j34110630265364_1_alg».proof.Proof.TileSums

set_option maxRecDepth 16384

noncomputable section

open Idealize.ShloMosaic Idealize.ShloMosaic.TcCoe Idealize.SL.Sem Idealize.ShloMosaic.ValueIdx
open Finset

namespace Cert.KernelIdeal.Acc

open Cert.KernelIdeal Cert.KernelIdeal.Gen Cert.Tiles

variable (m : (ℓ : Loc nD τ sig) → Buf (Elt Ideal) ℓ)

/-! ## The arrays by coordinates, and the three tables -/

abbrev ph (c : Dev nD) (i : Fin 8192) : EReal := m ((c : Thread nD τ).loc main_arg0) (ix1 i)
abbrev al (c : Dev nD) (i : Fin 8192) : EReal := m ((c : Thread nD τ).loc main_arg1) (ix1 i)
abbrev dm (c : Dev nD) (i k : Fin 8192) : EReal := m ((c : Thread nD τ).loc main_arg2) (ix2 i k)
abbrev km (c : Dev nD) (i k : Fin 8192) : EReal := m ((c : Thread nD τ).loc main_arg3) (ix2 i k)

/-- The coupling's summand. -/
def T6 (c : Dev nD) (i k : Fin 8192) : EReal :=
  km m c i k * ((al m c i * al m c k) * dm m c i k) * Ideal.sin (ph m c k - ph m c i)
/-- The squares. -/
def T7 (c : Dev nD) (i k : Fin 8192) : EReal := km m c i k * km m c i k
/-- The magnitudes. -/
def T8 (c : Dev nD) (i k : Fin 8192) : EReal := max (km m c i k) (-(km m c i k))

/-! ## The blocks at a point, and each tile's row sum -/

abbrev b0 (c : Dev nD) (t : Fin cfg0.N) : Vec Ideal S1024x1 .f32 := iblk m c 0 t
abbrev b1 (c : Dev nD) (t : Fin cfg0.N) : Vec Ideal S1x512 .f32 := iblk m c 1 t
abbrev b2 (c : Dev nD) (t : Fin cfg0.N) : Vec Ideal S1024x1 .f32 := iblk m c 2 t
abbrev b3 (c : Dev nD) (t : Fin cfg0.N) : Vec Ideal S1x512 .f32 := iblk m c 3 t
abbrev b4 (c : Dev nD) (t : Fin cfg0.N) : Vec Ideal S1024x512 .f32 := iblk m c 4 t
abbrev b5 (c : Dev nD) (t : Fin cfg0.N) : Vec Ideal S1024x512 .f32 := iblk m c 5 t
/-- What the point before left in the three accumulators. -/
abbrev prev (c : Dev nD) (t : Fin cfg0.N) : Vec Ideal S1024x1 .f32 × Vec Ideal S1024x1 .f32 × Vec Ideal S1024x1 .f32 :=
  outsAt0 m c (t.val - 1) (Nat.lt_of_le_of_lt (Nat.sub_le _ _) t.isLt)

theorem tile6_eq (c : Dev nD) (t : Fin cfg0.N) (r : Fin 1024) :
    ∑ q : Fin 512, b5 m c t (ix2 r q) * ((b2 m c t (ix2 r (0 : Fin 1)) * b3 m c t (ix2 (0 : Fin 1) q)) * b4 m c t (ix2 r q))
        * Ideal.sin (b1 m c t (ix2 (0 : Fin 1) q) - b0 m c t (ix2 r (0 : Fin 1)))
      = tile (T6 m c) t.val r.val := by
  have hN : t.val < 128 := lt_of_lt_of_eq t.isLt (show cfg0.N = 128 from N_0)
  unfold tile
  rw [← sum_fin_val (fun q => ext2 (T6 m c) (1024 * (t.val / 16) + r.val) (512 * (t.val % 16) + q)) 512]
  refine Finset.sum_congr rfl fun q _ => ?_
  have hi : 1024 * (t.val / 16) + r.val < 8192 := by have := r.isLt; omega
  have hk : 512 * (t.val % 16) + q.val < 8192 := by have := q.isLt; omega
  have e0 : b0 m c t (ix2 r (0 : Fin 1)) = ph m c ⟨_, hi⟩ := Blocks.blk0_apply m c t r 0 ⟨_, hi⟩ rfl
  have e1 : b1 m c t (ix2 (0 : Fin 1) q) = ph m c ⟨_, hk⟩ := Blocks.blk1_apply m c t 0 q ⟨_, hk⟩ rfl
  have e2 : b2 m c t (ix2 r (0 : Fin 1)) = al m c ⟨_, hi⟩ := Blocks.blk2_apply m c t r 0 ⟨_, hi⟩ rfl
  have e3 : b3 m c t (ix2 (0 : Fin 1) q) = al m c ⟨_, hk⟩ := Blocks.blk3_apply m c t 0 q ⟨_, hk⟩ rfl
  have e4 : b4 m c t (ix2 r q) = dm m c ⟨_, hi⟩ ⟨_, hk⟩ := Blocks.blk4_apply m c t r q ⟨_, hi⟩ ⟨_, hk⟩ rfl rfl
  have e5 : b5 m c t (ix2 r q) = km m c ⟨_, hi⟩ ⟨_, hk⟩ := Blocks.blk5_apply m c t r q ⟨_, hi⟩ ⟨_, hk⟩ rfl rfl
  rw [ext2_mk _ hi hk, e0, e1, e2, e3, e4, e5]
  rfl

theorem tile7_eq (c : Dev nD) (t : Fin cfg0.N) (r : Fin 1024) :
    ∑ q : Fin 512, b5 m c t (ix2 r q) * b5 m c t (ix2 r q) = tile (T7 m c) t.val r.val := by
  have hN : t.val < 128 := lt_of_lt_of_eq t.isLt (show cfg0.N = 128 from N_0)
  unfold tile
  rw [← sum_fin_val (fun q => ext2 (T7 m c) (1024 * (t.val / 16) + r.val) (512 * (t.val % 16) + q)) 512]
  refine Finset.sum_congr rfl fun q _ => ?_
  have hi : 1024 * (t.val / 16) + r.val < 8192 := by have := r.isLt; omega
  have hk : 512 * (t.val % 16) + q.val < 8192 := by have := q.isLt; omega
  have e5 : b5 m c t (ix2 r q) = km m c ⟨_, hi⟩ ⟨_, hk⟩ := Blocks.blk5_apply m c t r q ⟨_, hi⟩ ⟨_, hk⟩ rfl rfl
  rw [ext2_mk _ hi hk, e5]
  rfl

theorem tile8_eq (c : Dev nD) (t : Fin cfg0.N) (r : Fin 1024) :
    ∑ q : Fin 512, max (b5 m c t (ix2 r q)) (-(b5 m c t (ix2 r q))) = tile (T8 m c) t.val r.val := by
  have hN : t.val < 128 := lt_of_lt_of_eq t.isLt (show cfg0.N = 128 from N_0)
  unfold tile
  rw [← sum_fin_val (fun q => ext2 (T8 m c) (1024 * (t.val / 16) + r.val) (512 * (t.val % 16) + q)) 512]
  refine Finset.sum_congr rfl fun q _ => ?_
  have hi : 1024 * (t.val / 16) + r.val < 8192 := by have := r.isLt; omega
  have hk : 512 * (t.val % 16) + q.val < 8192 := by have := q.isLt; omega
  have e5 : b5 m c t (ix2 r q) = km m c ⟨_, hi⟩ ⟨_, hk⟩ := Blocks.blk5_apply m c t r q ⟨_, hi⟩ ⟨_, hk⟩ rfl rfl
  rw [ext2_mk _ hi hk, e5]
  rfl

/-! ## One point's step, by control case -/

theorem out6_A (c : Dev nD) (t : Fin cfg0.N) (h0 : t.val % 16 = 0) (r : Fin 1024) (u : Fin 1) :
    ((outsAt0 m c t.val t.isLt).1 (ix2 r u) : EReal) = 0 + tile (T6 m c) t.val r.val := by
  rw [outsAt0_A m c t h0]
  dsimp only
  rw [Found.out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (b0 m c t) (b1 m c t) (b2 m c t) (b3 m c t) (b4 m c t) (b5 m c t) ((hcond0_0 t).mpr h0)]
  rw [Pay.pay6_apply (b1 m c t) (b0 m c t) (b2 m c t) (b3 m c t) (b4 m c t) (b5 m c t) (k0_pay3 (F := Ideal)) r u, Pay.pay3_apply, tile6_eq]

theorem out6_B (c : Dev nD) (t : Fin cfg0.N) (h0 : ¬ t.val % 16 = 0) (r : Fin 1024) (u : Fin 1) :
    ((outsAt0 m c t.val t.isLt).1 (ix2 r u) : EReal)
      = ((prev m c t).1 (ix2 r u) : EReal) + tile (T6 m c) t.val r.val := by
  rw [outsAt0_B m c t h0]
  dsimp only
  rw [Found.out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (b0 m c t) (b1 m c t) (b2 m c t) (b3 m c t) (b4 m c t) (b5 m c t) (fun h => h0 ((hcond0_0 t).mp h)) (prev m c t).1 (prev m c t).2.1 (prev m c t).2.2]
  rw [Pay.pay6_apply (b1 m c t) (b0 m c t) (b2 m c t) (b3 m c t) (b4 m c t) (b5 m c t) (prev m c t).1 r u, tile6_eq]

theorem out7_A (c : Dev nD) (t : Fin cfg0.N) (h0 : t.val % 16 = 0) (r : Fin 1024) (u : Fin 1) :
    ((outsAt0 m c t.val t.isLt).2.1 (ix2 r u) : EReal) = 0 + tile (T7 m c) t.val r.val := by
  rw [outsAt0_A m c t h0]
  dsimp only
  rw [Found.out_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (b0 m c t) (b1 m c t) (b2 m c t) (b3 m c t) (b4 m c t) (b5 m c t) ((hcond0_0 t).mpr h0)]
  rw [Pay.pay7_apply (b5 m c t) (k0_pay4 (F := Ideal)) r u, Pay.pay4_apply, tile7_eq]

theorem out7_B (c : Dev nD) (t : Fin cfg0.N) (h0 : ¬ t.val % 16 = 0) (r : Fin 1024) (u : Fin 1) :
    ((outsAt0 m c t.val t.isLt).2.1 (ix2 r u) : EReal)
      = ((prev m c t).2.1 (ix2 r u) : EReal) + tile (T7 m c) t.val r.val := by
  rw [outsAt0_B m c t h0]
  dsimp only
  rw [Found.out_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (b0 m c t) (b1 m c t) (b2 m c t) (b3 m c t) (b4 m c t) (b5 m c t) (fun h => h0 ((hcond0_0 t).mp h)) (prev m c t).1 (prev m c t).2.1 (prev m c t).2.2]
  rw [Pay.pay7_apply (b5 m c t) (prev m c t).2.1 r u, tile7_eq]

theorem out8_A (c : Dev nD) (t : Fin cfg0.N) (h0 : t.val % 16 = 0) (r : Fin 1024) (u : Fin 1) :
    ((outsAt0 m c t.val t.isLt).2.2 (ix2 r u) : EReal) = 0 + tile (T8 m c) t.val r.val := by
  rw [outsAt0_A m c t h0]
  dsimp only
  rw [Found.out_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (b0 m c t) (b1 m c t) (b2 m c t) (b3 m c t) (b4 m c t) (b5 m c t) ((hcond0_0 t).mpr h0)]
  rw [Pay.pay8_apply (b5 m c t) (k0_pay5 (F := Ideal)) r u, Pay.pay5_apply, tile8_eq]

theorem out8_B (c : Dev nD) (t : Fin cfg0.N) (h0 : ¬ t.val % 16 = 0) (r : Fin 1024) (u : Fin 1) :
    ((outsAt0 m c t.val t.isLt).2.2 (ix2 r u) : EReal)
      = ((prev m c t).2.2 (ix2 r u) : EReal) + tile (T8 m c) t.val r.val := by
  rw [outsAt0_B m c t h0]
  dsimp only
  rw [Found.out_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (b0 m c t) (b1 m c t) (b2 m c t) (b3 m c t) (b4 m c t) (b5 m c t) (fun h => h0 ((hcond0_0 t).mp h)) (prev m c t).1 (prev m c t).2.1 (prev m c t).2.2]
  rw [Pay.pay8_apply (b5 m c t) (prev m c t).2.2 r u, tile8_eq]

/-! ## The running sums -/

/-- After point `n`, row `r` of this accumulator is the sum over the column tiles `0 … n % 16` of row
    `1024·(n/16) + r` of its table. -/
theorem acc6 (c : Dev nD) (n : ℕ) (hn : n < cfg0.N) (r : Fin 1024) (u : Fin 1) :
    ((outsAt0 m c n hn).1 (ix2 r u) : EReal)
      = ∑ J ∈ range (n % 16 + 1), ∑ q ∈ range 512, ext2 (T6 m c) (1024 * (n / 16) + r.val) (512 * J + q) :=
  acc_closed (T6 m c) cfg0.N (fun p : Fin 1024 × Fin 1 => p.1.val)
    (fun n hn p => ((outsAt0 m c n hn).1 (ix2 p.1 p.2) : EReal))
    (fun n hn p h0 => out6_A m c ⟨n, hn⟩ h0 p.1 p.2) (fun n hn p h0 => out6_B m c ⟨n, hn⟩ h0 p.1 p.2) n hn (r, u)

/-- After point `n`, row `r` of this accumulator is the sum over the column tiles `0 … n % 16` of row
    `1024·(n/16) + r` of its table. -/
theorem acc7 (c : Dev nD) (n : ℕ) (hn : n < cfg0.N) (r : Fin 1024) (u : Fin 1) :
    ((outsAt0 m c n hn).2.1 (ix2 r u) : EReal)
      = ∑ J ∈ range (n % 16 + 1), ∑ q ∈ range 512, ext2 (T7 m c) (1024 * (n / 16) + r.val) (512 * J + q) :=
  acc_closed (T7 m c) cfg0.N (fun p : Fin 1024 × Fin 1 => p.1.val)
    (fun n hn p => ((outsAt0 m c n hn).2.1 (ix2 p.1 p.2) : EReal))
    (fun n hn p h0 => out7_A m c ⟨n, hn⟩ h0 p.1 p.2) (fun n hn p h0 => out7_B m c ⟨n, hn⟩ h0 p.1 p.2) n hn (r, u)

/-- After point `n`, row `r` of this accumulator is the sum over the column tiles `0 … n % 16` of row
    `1024·(n/16) + r` of its table. -/
theorem acc8 (c : Dev nD) (n : ℕ) (hn : n < cfg0.N) (r : Fin 1024) (u : Fin 1) :
    ((outsAt0 m c n hn).2.2 (ix2 r u) : EReal)
      = ∑ J ∈ range (n % 16 + 1), ∑ q ∈ range 512, ext2 (T8 m c) (1024 * (n / 16) + r.val) (512 * J + q) :=
  acc_closed (T8 m c) cfg0.N (fun p : Fin 1024 × Fin 1 => p.1.val)
    (fun n hn p => ((outsAt0 m c n hn).2.2 (ix2 p.1 p.2) : EReal))
    (fun n hn p h0 => out8_A m c ⟨n, hn⟩ h0 p.1 p.2) (fun n hn p h0 => out8_B m c ⟨n, hn⟩ h0 p.1 p.2) n hn (r, u)

end Cert.KernelIdeal.Acc

end
-- ==== Proof.Final.lean ====
/-
  The three result arrays of the kernel, after the run, at the ideal values.

  Each accumulator's block never moves inside a row tile and is written back once, after the tile's last column
  tile (the points ≡ 15 mod 16), when its running sum has reached all sixteen column tiles: row `r` of row tile `I`
  then holds the whole sum of row `1024·I + r` of the accumulator's table. The eight blocks written back are the
  eight row tiles, which fill the array. So each result array is the column of its table's row sums.
-/
import proofs.«116417_j34110630265364_1_alg».proof.Proof.Invariant

set_option maxRecDepth 16384

noncomputable section

open Idealize.ShloMosaic Idealize.ShloMosaic.TcCoe Idealize.SL.Sem Idealize.ShloMosaic.ValueIdx
open Idealize.ShloMosaic.Pipeline (Dat)
open Finset

namespace Cert.KernelIdeal.Final

open Cert.KernelIdeal Cert.KernelIdeal.Gen Cert.Tiles

variable (m : (ℓ : Loc nD τ sig) → Buf (Elt Ideal) ℓ)

/-- A table's row sums, as a column of 8192 rows. -/
def rows (f : Fin 8192 → Fin 8192 → EReal) : S8192x1.Idx → EReal :=
  fun i => ∑ k : Fin 8192, f ⟨(i 0).val, idx2_lt0 i⟩ k

/-- Which block of its array each output window holds at point `t`: its row tile's. Decided over the 128 points. -/
theorem out_idx : ∀ t : Fin cfg0.N, (win0_6.index t 0 = t.val / 16 ∧ win0_6.index t 1 = 0)
    ∧ (win0_7.index t 0 = t.val / 16 ∧ win0_7.index t 1 = 0) ∧ (win0_8.index t 0 = t.val / 16 ∧ win0_8.index t 1 = 0) :=
  (by decide +kernel : ∀ t : Fin grid0.N, _)

/-! ## Output window 6 -/

/-- The running sum after point `n`, at any index of the block. -/
theorem acc6_at (c : Dev nD) (n : ℕ) (hn : n < cfg0.N) (j : S1024x1.Idx) :
    ((outsAt0 m c n hn).1 j : EReal)
      = ∑ J ∈ range (n % 16 + 1), ∑ q ∈ range 512, ext2 (Acc.T6 m c) (1024 * (n / 16) + (j 0).val) (512 * J + q) :=
  (congrArg (fun y => ((outsAt0 m c n hn).1 y : EReal)) (eq_ix2 j)).trans (Acc.acc6 m c n hn (j 0) (j 1))

/-- What a row tile's last point writes back is that row tile's block of the column of row sums: its running sum has
    reached all sixteen column tiles. -/
theorem flushed6_eq (c : Dev nD) (t : Fin cfg0.N) (hf : (cfg0.win 6).flush t = true) :
    (dats m 0 c).flushed 6 t = ((cfg0.win 6).blk t).view.read (Elt Ideal) (rows (Acc.T6 m c)) := by
  have hN : t.val < 128 := lt_of_lt_of_eq t.isLt (show cfg0.N = 128 from N_0)
  have h15 : t.val % 16 = 15 := (flush0_6 t).mp hf
  show (cfg0.win 6).cut (grid0.coords t) ((dats m 0 c).after 6 t) = _
  rw [after0_6]
  funext j
  show ((outsAt0 m c t.val t.isLt).1 j : EReal) = rows (Acc.T6 m c) (((cfg0.win 6).blk t).view.emb j)
  rw [acc6_at m c t.val t.isLt j, h15]
  have hj : (j 0).val < 1024 := (j 0).isLt
  have hrow : 1024 * (t.val / 16) + (j 0).val < 8192 := by omega
  have he : ((((cfg0.win 6).blk t).view.emb j) 0).val = 1024 * (t.val / 16) + (j 0).val := by
    show win0_6.index t 0 * 1024 + 1 * (j 0).val = _
    rw [(out_idx t).1.1]; omega
  unfold rows
  exact (row_tiles (Acc.T6 m c) ⟨1024 * (t.val / 16) + (j 0).val, hrow⟩ 512 16 rfl).trans
    (Finset.sum_congr rfl fun k _ => congrArg (fun i => Acc.T6 m c i k) (Fin.ext he.symm))

/-- An index of the array is in point `t`'s block iff each coordinate is in the block's range on its axis. -/
theorem mem_blk6 (t : Fin cfg0.N) (i : S8192x1.Idx) :
    i ∈ ((cfg0.win 6).blk t).view.set ↔ ∀ a : Fin 2, win0_6.index t a * S1024x1.size a ≤ (i a).val
      ∧ (i a).val < win0_6.index t a * S1024x1.size a + S1024x1.size a := by
  show i ∈ ((View.whole main_call0_v4_0).slice (win0_6.rect t)).set ↔ _
  rw [View.set_slice_whole, Rect.mem_set_unit]
  exact Iff.rfl

/-- Row `i` lies in the block written back at the last point of its row tile. -/
theorem cover6 (i : S8192x1.Idx) :
    ∃ t : Fin cfg0.N, (cfg0.win 6).flush t = true ∧ i ∈ ((cfg0.win 6).blk t).view.set := by
  have hi0 : (i 0).val < 8192 := (i 0).isLt
  have hi1 : (i 1).val < 1 := (i 1).isLt
  have hN : cfg0.N = 128 := N_0
  have hlt : 16 * ((i 0).val / 1024) + 15 < cfg0.N := by rw [hN]; omega
  have e0 := (out_idx ⟨16 * ((i 0).val / 1024) + 15, hlt⟩).1.1
  have e1 := (out_idx ⟨16 * ((i 0).val / 1024) + 15, hlt⟩).1.2
  refine ⟨⟨16 * ((i 0).val / 1024) + 15, hlt⟩, (flush0_6 _).mpr (by show (16 * ((i 0).val / 1024) + 15) % 16 = 15; omega), ?_⟩
  rw [mem_blk6]
  intro a
  match a with
  | ⟨0, _⟩ =>
    show win0_6.index _ 0 * 1024 ≤ (i 0).val ∧ (i 0).val < win0_6.index _ 0 * 1024 + 1024
    rw [e0]
    show (16 * ((i 0).val / 1024) + 15) / 16 * 1024 ≤ (i 0).val ∧ (i 0).val < (16 * ((i 0).val / 1024) + 15) / 16 * 1024 + 1024
    omega
  | ⟨1, _⟩ =>
    show win0_6.index _ 1 * 1 ≤ (i 1).val ∧ (i 1).val < win0_6.index _ 1 * 1 + 1
    rw [e1]; omega

/-- After the run the array is the column of row sums of its table. -/
theorem final6 (c : Dev nD) : (dats m 0 c).arrAt 6 cfg0.N = rows (Acc.T6 m c) :=
  (dats m 0 c).arrAt_eq_of_cover 6 (rows (Acc.T6 m c)) (flushed6_eq m c) cover6

/-! ## Output window 7 -/

/-- The running sum after point `n`, at any index of the block. -/
theorem acc7_at (c : Dev nD) (n : ℕ) (hn : n < cfg0.N) (j : S1024x1.Idx) :
    ((outsAt0 m c n hn).2.1 j : EReal)
      = ∑ J ∈ range (n % 16 + 1), ∑ q ∈ range 512, ext2 (Acc.T7 m c) (1024 * (n / 16) + (j 0).val) (512 * J + q) :=
  (congrArg (fun y => ((outsAt0 m c n hn).2.1 y : EReal)) (eq_ix2 j)).trans (Acc.acc7 m c n hn (j 0) (j 1))

/-- What a row tile's last point writes back is that row tile's block of the column of row sums: its running sum has
    reached all sixteen column tiles. -/
theorem flushed7_eq (c : Dev nD) (t : Fin cfg0.N) (hf : (cfg0.win 7).flush t = true) :
    (dats m 0 c).flushed 7 t = ((cfg0.win 7).blk t).view.read (Elt Ideal) (rows (Acc.T7 m c)) := by
  have hN : t.val < 128 := lt_of_lt_of_eq t.isLt (show cfg0.N = 128 from N_0)
  have h15 : t.val % 16 = 15 := (flush0_7 t).mp hf
  show (cfg0.win 7).cut (grid0.coords t) ((dats m 0 c).after 7 t) = _
  rw [after0_7]
  funext j
  show ((outsAt0 m c t.val t.isLt).2.1 j : EReal) = rows (Acc.T7 m c) (((cfg0.win 7).blk t).view.emb j)
  rw [acc7_at m c t.val t.isLt j, h15]
  have hj : (j 0).val < 1024 := (j 0).isLt
  have hrow : 1024 * (t.val / 16) + (j 0).val < 8192 := by omega
  have he : ((((cfg0.win 7).blk t).view.emb j) 0).val = 1024 * (t.val / 16) + (j 0).val := by
    show win0_7.index t 0 * 1024 + 1 * (j 0).val = _
    rw [(out_idx t).2.1.1]; omega
  unfold rows
  exact (row_tiles (Acc.T7 m c) ⟨1024 * (t.val / 16) + (j 0).val, hrow⟩ 512 16 rfl).trans
    (Finset.sum_congr rfl fun k _ => congrArg (fun i => Acc.T7 m c i k) (Fin.ext he.symm))

/-- An index of the array is in point `t`'s block iff each coordinate is in the block's range on its axis. -/
theorem mem_blk7 (t : Fin cfg0.N) (i : S8192x1.Idx) :
    i ∈ ((cfg0.win 7).blk t).view.set ↔ ∀ a : Fin 2, win0_7.index t a * S1024x1.size a ≤ (i a).val
      ∧ (i a).val < win0_7.index t a * S1024x1.size a + S1024x1.size a := by
  show i ∈ ((View.whole main_call0_v4_1).slice (win0_7.rect t)).set ↔ _
  rw [View.set_slice_whole, Rect.mem_set_unit]
  exact Iff.rfl

/-- Row `i` lies in the block written back at the last point of its row tile. -/
theorem cover7 (i : S8192x1.Idx) :
    ∃ t : Fin cfg0.N, (cfg0.win 7).flush t = true ∧ i ∈ ((cfg0.win 7).blk t).view.set := by
  have hi0 : (i 0).val < 8192 := (i 0).isLt
  have hi1 : (i 1).val < 1 := (i 1).isLt
  have hN : cfg0.N = 128 := N_0
  have hlt : 16 * ((i 0).val / 1024) + 15 < cfg0.N := by rw [hN]; omega
  have e0 := (out_idx ⟨16 * ((i 0).val / 1024) + 15, hlt⟩).2.1.1
  have e1 := (out_idx ⟨16 * ((i 0).val / 1024) + 15, hlt⟩).2.1.2
  refine ⟨⟨16 * ((i 0).val / 1024) + 15, hlt⟩, (flush0_7 _).mpr (by show (16 * ((i 0).val / 1024) + 15) % 16 = 15; omega), ?_⟩
  rw [mem_blk7]
  intro a
  match a with
  | ⟨0, _⟩ =>
    show win0_7.index _ 0 * 1024 ≤ (i 0).val ∧ (i 0).val < win0_7.index _ 0 * 1024 + 1024
    rw [e0]
    show (16 * ((i 0).val / 1024) + 15) / 16 * 1024 ≤ (i 0).val ∧ (i 0).val < (16 * ((i 0).val / 1024) + 15) / 16 * 1024 + 1024
    omega
  | ⟨1, _⟩ =>
    show win0_7.index _ 1 * 1 ≤ (i 1).val ∧ (i 1).val < win0_7.index _ 1 * 1 + 1
    rw [e1]; omega

/-- After the run the array is the column of row sums of its table. -/
theorem final7 (c : Dev nD) : (dats m 0 c).arrAt 7 cfg0.N = rows (Acc.T7 m c) :=
  (dats m 0 c).arrAt_eq_of_cover 7 (rows (Acc.T7 m c)) (flushed7_eq m c) cover7

/-! ## Output window 8 -/

/-- The running sum after point `n`, at any index of the block. -/
theorem acc8_at (c : Dev nD) (n : ℕ) (hn : n < cfg0.N) (j : S1024x1.Idx) :
    ((outsAt0 m c n hn).2.2 j : EReal)
      = ∑ J ∈ range (n % 16 + 1), ∑ q ∈ range 512, ext2 (Acc.T8 m c) (1024 * (n / 16) + (j 0).val) (512 * J + q) :=
  (congrArg (fun y => ((outsAt0 m c n hn).2.2 y : EReal)) (eq_ix2 j)).trans (Acc.acc8 m c n hn (j 0) (j 1))

/-- What a row tile's last point writes back is that row tile's block of the column of row sums: its running sum has
    reached all sixteen column tiles. -/
theorem flushed8_eq (c : Dev nD) (t : Fin cfg0.N) (hf : (cfg0.win 8).flush t = true) :
    (dats m 0 c).flushed 8 t = ((cfg0.win 8).blk t).view.read (Elt Ideal) (rows (Acc.T8 m c)) := by
  have hN : t.val < 128 := lt_of_lt_of_eq t.isLt (show cfg0.N = 128 from N_0)
  have h15 : t.val % 16 = 15 := (flush0_8 t).mp hf
  show (cfg0.win 8).cut (grid0.coords t) ((dats m 0 c).after 8 t) = _
  rw [after0_8]
  funext j
  show ((outsAt0 m c t.val t.isLt).2.2 j : EReal) = rows (Acc.T8 m c) (((cfg0.win 8).blk t).view.emb j)
  rw [acc8_at m c t.val t.isLt j, h15]
  have hj : (j 0).val < 1024 := (j 0).isLt
  have hrow : 1024 * (t.val / 16) + (j 0).val < 8192 := by omega
  have he : ((((cfg0.win 8).blk t).view.emb j) 0).val = 1024 * (t.val / 16) + (j 0).val := by
    show win0_8.index t 0 * 1024 + 1 * (j 0).val = _
    rw [(out_idx t).2.2.1]; omega
  unfold rows
  exact (row_tiles (Acc.T8 m c) ⟨1024 * (t.val / 16) + (j 0).val, hrow⟩ 512 16 rfl).trans
    (Finset.sum_congr rfl fun k _ => congrArg (fun i => Acc.T8 m c i k) (Fin.ext he.symm))

/-- An index of the array is in point `t`'s block iff each coordinate is in the block's range on its axis. -/
theorem mem_blk8 (t : Fin cfg0.N) (i : S8192x1.Idx) :
    i ∈ ((cfg0.win 8).blk t).view.set ↔ ∀ a : Fin 2, win0_8.index t a * S1024x1.size a ≤ (i a).val
      ∧ (i a).val < win0_8.index t a * S1024x1.size a + S1024x1.size a := by
  show i ∈ ((View.whole main_call0_v4_2).slice (win0_8.rect t)).set ↔ _
  rw [View.set_slice_whole, Rect.mem_set_unit]
  exact Iff.rfl

/-- Row `i` lies in the block written back at the last point of its row tile. -/
theorem cover8 (i : S8192x1.Idx) :
    ∃ t : Fin cfg0.N, (cfg0.win 8).flush t = true ∧ i ∈ ((cfg0.win 8).blk t).view.set := by
  have hi0 : (i 0).val < 8192 := (i 0).isLt
  have hi1 : (i 1).val < 1 := (i 1).isLt
  have hN : cfg0.N = 128 := N_0
  have hlt : 16 * ((i 0).val / 1024) + 15 < cfg0.N := by rw [hN]; omega
  have e0 := (out_idx ⟨16 * ((i 0).val / 1024) + 15, hlt⟩).2.2.1
  have e1 := (out_idx ⟨16 * ((i 0).val / 1024) + 15, hlt⟩).2.2.2
  refine ⟨⟨16 * ((i 0).val / 1024) + 15, hlt⟩, (flush0_8 _).mpr (by show (16 * ((i 0).val / 1024) + 15) % 16 = 15; omega), ?_⟩
  rw [mem_blk8]
  intro a
  match a with
  | ⟨0, _⟩ =>
    show win0_8.index _ 0 * 1024 ≤ (i 0).val ∧ (i 0).val < win0_8.index _ 0 * 1024 + 1024
    rw [e0]
    show (16 * ((i 0).val / 1024) + 15) / 16 * 1024 ≤ (i 0).val ∧ (i 0).val < (16 * ((i 0).val / 1024) + 15) / 16 * 1024 + 1024
    omega
  | ⟨1, _⟩ =>
    show win0_8.index _ 1 * 1 ≤ (i 1).val ∧ (i 1).val < win0_8.index _ 1 * 1 + 1
    rw [e1]; omega

/-- After the run the array is the column of row sums of its table. -/
theorem final8 (c : Dev nD) : (dats m 0 c).arrAt 8 cfg0.N = rows (Acc.T8 m c) :=
  (dats m 0 c).arrAt_eq_of_cover 8 (rows (Acc.T8 m c)) (flushed8_eq m c) cover8

end Cert.KernelIdeal.Final

end
-- ==== Proof.HostGlue.lean ====
/-
  The scalar arithmetic both programs do on the host after the sums, stated once at the ideal values.

  Both the kernel's program and the reference finish with the same short chain of scalar operations:
    • the order parameter  R = √(c·c + s·s)  with  c = (0 + Σ cos phases) / 8192,  s = (0 + Σ sin phases) / 8192;
    • the loss  (1 − R) + w·√(k2) + w·kabs  with the same weight word `w` twice, from R and the two scalars
      k2 (the sum of K·K) and kabs (the sum of |K|).
  They are named here as functions of what goes into them, so that the two programs' results are compared by
  comparing those inputs and the chain itself is never opened.
-/
import Idealize.ShloMosaic.PureOps
import Idealize.ShloMosaic.PureOps.Ideal

noncomputable section

open Idealize.ShloMosaic

namespace Cert.Glue

/-- The scalar shape. -/
abbrev Sc : Shape := ⟨0, ![]⟩
/-- The vectors' shape. -/
abbrev Vn : Shape := ⟨1, ![8192]⟩

/-- The mean, as the host takes it, of a vector: its sum from the zero word, divided by the word of 8192. -/
def mean (y : FVec Ideal Vn .f32) (h : Vn.ReducesTo [0] Sc) (h' : 0 < Sc.numel) : FVec Ideal Sc .f32 :=
  Host.divf (Host.reduceAdd y (constant (F := Ideal) Sc .f32 0x00000000#32) h h') (constant (F := Ideal) Sc .f32 0x46000000#32)

/-- The order parameter of the phases. -/
def orderParam (x : FVec Ideal Vn .f32) (h : Vn.ReducesTo [0] Sc) (h' : 0 < Sc.numel) : FVec Ideal Sc .f32 :=
  Host.sqrt (addf (mulf (mean (Host.cos x) h h') (mean (Host.cos x) h h')) (mulf (mean (Host.sin x) h h') (mean (Host.sin x) h h')))

/-- The loss from the order parameter and the two sums over the coupling matrix. -/
def loss (R k2 kabs : FVec Ideal Sc .f32) : FVec Ideal Sc .f32 :=
  addf (addf (subf (constant (F := Ideal) Sc .f32 0x3F800000#32) R)
      (mulf (constant (F := Ideal) Sc .f32 0x3C23D70A#32) (Host.sqrt k2)))
    (mulf (constant (F := Ideal) Sc .f32 0x3C23D70A#32) kabs)

end Cert.Glue

end
-- ==== Proof.Tail.lean ====
/-
  The kernel program's three results, at the ideal values.

  After the launch the host reshapes the coupling column to a vector, sums the other two columns to scalars, and
  applies the scalar chain shared with the reference. The lines after the launch read the launch's three result arrays,
  which are the columns of row sums of the three tables, and the phases as launched. So
    • dtheta is the coupling column of row sums cast to a vector;
    • R is the order parameter of the phases;
    • the loss is the shared loss of R, of the column sum of the squares' row sums and of that of the magnitudes'.
  The two column sums, read at the scalar's one index, are the zero word plus the double sum over rows and columns.
-/
import proofs.«116417_j34110630265364_1_alg».proof.Proof.Final
import proofs.«116417_j34110630265364_1_alg».proof.Proof.HostGlue
import Idealize.ShloMosaic.PureOps.Ideal.Laws
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tail

open Cert.KernelIdeal Cert.KernelIdeal.Gen
open scoped BigOperators

variable (m : (ℓ : Loc nD τ sig) → Buf (Elt Ideal) ℓ)

/-- The core's buffers as the lines after the launch find them: the launch's arrays at their final contents, every
    other buffer as the launch found it. -/
abbrev W (c : Dev nD) : Valuation τ sig (Elt Ideal) :=
  Pipeline.withArrays (cfgs 0).spec c (V0 m c) (fun w => (dats m 0 c).arrAt w (cfgs 0).N)

/-- The phases are no array of the launch and no host line before it writes them. -/
theorem W_phases (c : Dev nD) : W m c (Proc.devRef .tc main_arg0) = m ((c : Thread nD τ).loc main_arg0) :=
  (Pipeline.withArrays_of_ne _ c (V0 m c) _ main_arg0 (by exact (by decide : ∀ w, Pipeline.arrRef spec0 w ≠ main_arg0))).trans
    (V_main_arg0 m c)

theorem W_coupling (c : Dev nD) : W m c (Proc.devRef .tc main_call0_v4_0) = Final.rows (Acc.T6 m c) :=
  (Pipeline.withArrays_arr spec0 launch0.win.arr_inj c _ _ 6).trans (Final.final6 m c)
theorem W_squares (c : Dev nD) : W m c (Proc.devRef .tc main_call0_v4_1) = Final.rows (Acc.T7 m c) :=
  (Pipeline.withArrays_arr spec0 launch0.win.arr_inj c _ _ 7).trans (Final.final7 m c)
theorem W_magnitudes (c : Dev nD) : W m c (Proc.devRef .tc main_call0_v4_2) = Final.rows (Acc.T8 m c) :=
  (Pipeline.withArrays_arr spec0 launch0.win.arr_inj c _ _ 8).trans (Final.final8 m c)

/-! ## The three results -/

/-- dtheta: the coupling column cast to a vector. -/
theorem dtheta_eq (c : Dev nD) : Pipeline.afterTail₀ cfgs (dats m) 0 (V0 m) [hostOps1] c main_v0_1
    = shapeCast S8192 (Final.rows (Acc.T6 m c)) shapeCasts_S8192x1_S8192 := by
  rw [← W_coupling m c]
  unfold Pipeline.afterTail₀
  show StableHlo.after hostOps1 _ (Proc.devRef .tc main_v0_1) = _
  after_results
  rfl

set_option maxHeartbeats 2000000 in
/-- R: the order parameter of the phases. -/
theorem order_eq (c : Dev nD) : Pipeline.afterTail₀ cfgs (dats m) 0 (V0 m) [hostOps1] c main_v0_0
    = Glue.orderParam (m ((c : Thread nD τ).loc main_arg0)) reducesTo_S8192_S_d0 h_S_ := by
  rw [← W_phases m c]
  unfold Pipeline.afterTail₀
  show StableHlo.after hostOps1 _ (Proc.devRef .tc main_v0_0) = _
  after_results_simp
  rfl

set_option maxHeartbeats 2000000 in
/-- The loss: the shared loss of R and the two column sums. -/
theorem loss_eq (c : Dev nD) : Pipeline.afterTail₀ cfgs (dats m) 0 (V0 m) [hostOps1] c main_v0_2
    = Glue.loss (Glue.orderParam (m ((c : Thread nD τ).loc main_arg0)) reducesTo_S8192_S_d0 h_S_)
        (Host.reduceAdd (Final.rows (Acc.T7 m c)) (constant (F := Ideal) S_ .f32 0x00000000#32) reducesTo_S8192x1_S_d0_1 h_S_)
        (Host.reduceAdd (Final.rows (Acc.T8 m c)) (constant (F := Ideal) S_ .f32 0x00000000#32) reducesTo_S8192x1_S_d0_1 h_S_) := by
  rw [← W_phases m c, ← W_squares m c, ← W_magnitudes m c]
  unfold Pipeline.afterTail₀
  show StableHlo.after hostOps1 _ (Proc.devRef .tc main_v0_2) = _
  after_results_simp
  rfl

/-! ## The column sums as double sums -/

/-- The sum of a column of row sums, read at the scalar's index: the zero word plus the sum over rows and columns. -/
theorem colsum_apply (f : Fin 8192 → Fin 8192 → EReal) (i : S_.Idx) :
    Host.reduceAdd (F := Ideal) (Final.rows f) (constant (F := Ideal) S_ .f32 0x00000000#32) reducesTo_S8192x1_S_d0_1 h_S_ i
      = Ideal.ofBits .f32 0x00000000#32 + ∑ a : Fin 8192, ∑ k : Fin 8192, f a k := by
  simp only [Host.reduceAdd, Ideal.hostReduceAdd_def]
  rw [Ideal.hostReduceAdd_total reducesTo_S8192x1_S_d0_1 (fun b => b.elim0), Keepdims.sum_idx_a1]
  rfl

end Cert.KernelIdeal.Tail

end
-- ==== Proof.RefValue.lean ====
/-
  The reference program's three results, at the ideal values, in the kernel's terms.

  Read one operation at a time, the reference computes
    • dtheta i = 0 + Σ_k K(i,k) · ((alive i · alive k) · dist(i,k)) · sin(phases k − phases i): the broadcasts of the two
      vectors along rows and along columns read the vector at the row's, respectively the column's, coordinate;
    • the two sums over the whole coupling matrix, each the zero word plus the double sum over rows and columns;
    • the order parameter and the loss by the scalar chain both programs share.
-/
import proofs.«116417_j34110630265364_1_alg».proof.Proof.Gen.ReferenceIdeal.Read
import proofs.«116417_j34110630265364_1_alg».proof.Proof.HostGlue
import proofs.«116417_j34110630265364_1_alg».proof.Proof.LibKeepdims

noncomputable section

open Idealize.ShloMosaic Idealize.ShloMosaic.ValueIdx
open scoped BigOperators

namespace Cert.ReferenceIdeal.RefValue

open Cert.ReferenceIdeal Cert.ReferenceIdeal.Gen

variable (x0 x1 : (⟨S8192, .f32⟩ : BufTy).Contents (Elt Ideal)) (x2 x3 : (⟨S8192x8192, .f32⟩ : BufTy).Contents (Elt Ideal))

/-- The product under the coupling's sum, at row `i` and column `k`. -/
theorem term_apply (i k : Fin 8192) :
    Read.val_main_v13 (F := Ideal) x0 x1 x2 x3 (ix2 i k)
      = x3 (ix2 i k) * ((x1 (ix1 i) * x1 (ix1 k)) * x2 (ix2 i k)) * Ideal.sin (x0 (ix1 k) - x0 (ix1 i)) := by
  rw [Read.val_main_v13_apply, Read.val_main_v11_apply, Read.val_main_v10_apply, Read.val_main_v9_apply,
    Read.val_main_v7_apply, Read.val_main_v5_apply, Read.val_main_v8_apply, Read.val_main_v6_apply,
    Read.val_main_v12_apply, Read.val_main_v4_apply, Read.val_main_v2_apply, Read.val_main_v0_apply,
    Read.val_main_v3_apply, Read.val_main_v1_apply]
  have e5 : Read.idx_main_v5 (Read.idx_main_v7 (ix2 i k)) = ix1 i :=
    funext fun a => Fin.ext (by match a with | ⟨0, _⟩ => rfl)
  have e6 : Read.idx_main_v6 (Read.idx_main_v8 (ix2 i k)) = ix1 k :=
    funext fun a => Fin.ext (by match a with | ⟨0, _⟩ => rfl)
  have e0 : Read.idx_main_v0 (Read.idx_main_v2 (ix2 i k)) = ix1 k :=
    funext fun a => Fin.ext (by match a with | ⟨0, _⟩ => rfl)
  have e1 : Read.idx_main_v1 (Read.idx_main_v3 (ix2 i k)) = ix1 i :=
    funext fun a => Fin.ext (by match a with | ⟨0, _⟩ => rfl)
  rw [e5, e6, e0, e1]
  rfl

/-- The reference's coupling at row `i`: the sum over the columns. -/
theorem coupling_apply (i : Fin 8192) :
    Read.val_main_v14 (F := Ideal) x0 x1 x2 x3 (ix1 i)
      = ∑ k : Fin 8192, x3 (ix2 i k) * ((x1 (ix1 i) * x1 (ix1 k)) * x2 (ix2 i k)) * Ideal.sin (x0 (ix1 k) - x0 (ix1 i)) := by
  rw [Read.val_main_v14_apply]
  rw [show (Read.val_main_cst (F := Ideal)) (Shape.Idx.first h_S_) = 0 from Ideal.ofBits_zero_f32, zero_add]
  refine Finset.sum_congr rfl fun k _ => ?_
  have hik : Read.idx_main_v14 (ix1 i) k = ix2 i k :=
    funext fun a => Fin.ext (by match a with | ⟨0, _⟩ => rfl | ⟨1, _⟩ => rfl)
  rw [hik]
  exact term_apply x0 x1 x2 x3 i k

/-- The sum of K · K over the whole matrix, by rows then columns. -/
theorem sumsq_apply (i : S_.Idx) :
    Read.val_main_v27 (F := Ideal) x3 i
      = Ideal.ofBits .f32 0x00000000#32 + ∑ a : Fin 8192, ∑ k : Fin 8192, x3 (ix2 a k) * x3 (ix2 a k) := by
  rw [Read.val_main_v27_apply, sum_idx2]
  rfl

/-- The sum of |K| over the whole matrix, by rows then columns. -/
theorem summag_apply (i : S_.Idx) :
    Read.val_main_v32 (F := Ideal) x3 i
      = Ideal.ofBits .f32 0x00000000#32 + ∑ a : Fin 8192, ∑ k : Fin 8192, max (x3 (ix2 a k)) (-(x3 (ix2 a k))) := by
  rw [Read.val_main_v32_apply, sum_idx2]
  rfl

/-- The reference's first result is the order parameter of the phases. -/
theorem order_eq : Read.val_main_v24 (F := Ideal) x0 = Glue.orderParam x0 reducesTo_S8192_S_d0 h_S_ := rfl

/-- Its third result is the loss of that order parameter and the two sums. -/
theorem loss_eq : Read.val_main_v34 (F := Ideal) x0 x3
    = Glue.loss (Read.val_main_v24 (F := Ideal) x0) (Read.val_main_v27 (F := Ideal) x3) (Read.val_main_v32 (F := Ideal) x3) := rfl

end Cert.ReferenceIdeal.RefValue

end
-- ==== Proof.Bridge.lean ====
/-
  The two programs' results are the same functions of the argument arrays, over the extended reals.

  With ph, al the two vectors and D, K the two matrices:
    • dtheta. The reference's row `i` is Σ_k K(i,k)·((al i·al k)·D(i,k))·sin(ph k − ph i); the kernel's coupling column,
      cast to a vector, holds at `i` the row sum of the same table: the same sum.
    • R. Both are the order parameter of the same phases.
    • loss. Both are the shared loss of R and of the sums of K·K and of |K| over the whole matrix: the reference's one
      sum over all index pairs, and the kernel's sum over rows of its row sums, are both the zero word plus the double
      sum over rows and columns.
  Only commutativity and associativity of + on the extended reals are used (regrouping of finite sums), so the
  inputs' finiteness is never needed.
-/
import proofs.«116417_j34110630265364_1_alg».proof.Proof.Tail
import proofs.«116417_j34110630265364_1_alg».proof.Proof.RefValue

noncomputable section

open Idealize.ShloMosaic Idealize.ShloMosaic.TcCoe Idealize.SL.Sem Idealize.ShloMosaic.ValueIdx
open scoped BigOperators

namespace Cert.Bridge

open Cert.KernelIdeal (nD τ sig main_arg0 main_arg1 main_arg2 main_arg3)

variable (m : (ℓ : Loc nD τ sig) → Buf (Elt Ideal) ℓ) (c : Dev nD)

/-- R: the reference's first result, of the kernel's phases, is the kernel's. -/
theorem order_eq :
    Cert.ReferenceIdeal.Read.val_main_v24 (F := Ideal) (m ((c.tc : Thread nD τ).loc main_arg0))
      = Glue.orderParam (m ((c : Thread nD τ).loc main_arg0)) Cert.KernelIdeal.Facts₀.reducesTo_S8192_S_d0 Cert.KernelIdeal.Facts₀.h_S_ :=
  Cert.ReferenceIdeal.RefValue.order_eq _

/-- dtheta: the reference's second result, of the kernel's arrays, is the kernel's coupling column as a vector. -/
theorem theta_eq :
    Cert.ReferenceIdeal.Read.val_main_v14 (F := Ideal) (m ((c.tc : Thread nD τ).loc main_arg0))
        (m ((c.tc : Thread nD τ).loc main_arg1)) (m ((c.tc : Thread nD τ).loc main_arg2)) (m ((c.tc : Thread nD τ).loc main_arg3))
      = shapeCast Cert.KernelIdeal.S8192 (Cert.KernelIdeal.Final.rows (Cert.KernelIdeal.Acc.T6 m c))
          Cert.KernelIdeal.Facts₀.shapeCasts_S8192x1_S8192 := by
  funext j
  obtain ⟨i, rfl⟩ : ∃ i : Fin 8192, j = ix1 i := ⟨j 0, eq_ix1 j⟩
  rw [Cert.ReferenceIdeal.RefValue.coupling_apply]
  refine Eq.trans ?_ (Keepdims.shapeCast_a1_a_apply _ _ i).symm
  rfl

/-- The sum of K·K: the reference's over all index pairs is the kernel's over its column of row sums. -/
theorem sumsq_eq :
    Cert.ReferenceIdeal.Read.val_main_v27 (F := Ideal) (m ((c.tc : Thread nD τ).loc main_arg3))
      = Host.reduceAdd (F := Ideal) (Cert.KernelIdeal.Final.rows (Cert.KernelIdeal.Acc.T7 m c))
          (constant (F := Ideal) Cert.KernelIdeal.S_ .f32 0x00000000#32) Cert.KernelIdeal.Facts₀.reducesTo_S8192x1_S_d0_1 Cert.KernelIdeal.Facts₀.h_S_ := by
  funext i
  rw [Cert.ReferenceIdeal.RefValue.sumsq_apply]
  exact (Cert.KernelIdeal.Tail.colsum_apply (Cert.KernelIdeal.Acc.T7 m c) i).symm

/-- The sum of |K| likewise. -/
theorem summag_eq :
    Cert.ReferenceIdeal.Read.val_main_v32 (F := Ideal) (m ((c.tc : Thread nD τ).loc main_arg3))
      = Host.reduceAdd (F := Ideal) (Cert.KernelIdeal.Final.rows (Cert.KernelIdeal.Acc.T8 m c))
          (constant (F := Ideal) Cert.KernelIdeal.S_ .f32 0x00000000#32) Cert.KernelIdeal.Facts₀.reducesTo_S8192x1_S_d0_1 Cert.KernelIdeal.Facts₀.h_S_ := by
  funext i
  rw [Cert.ReferenceIdeal.RefValue.summag_apply]
  exact (Cert.KernelIdeal.Tail.colsum_apply (Cert.KernelIdeal.Acc.T8 m c) i).symm

/-- The loss: the shared function of equal inputs. -/
theorem loss_eq :
    Cert.ReferenceIdeal.Read.val_main_v34 (F := Ideal) (m ((c.tc : Thread nD τ).loc main_arg0)) (m ((c.tc : Thread nD τ).loc main_arg3))
      = Glue.loss (Glue.orderParam (m ((c : Thread nD τ).loc main_arg0)) Cert.KernelIdeal.Facts₀.reducesTo_S8192_S_d0 Cert.KernelIdeal.Facts₀.h_S_)
          (Host.reduceAdd (F := Ideal) (Cert.KernelIdeal.Final.rows (Cert.KernelIdeal.Acc.T7 m c))
            (constant (F := Ideal) Cert.KernelIdeal.S_ .f32 0x00000000#32) Cert.KernelIdeal.Facts₀.reducesTo_S8192x1_S_d0_1 Cert.KernelIdeal.Facts₀.h_S_)
          (Host.reduceAdd (F := Ideal) (Cert.KernelIdeal.Final.rows (Cert.KernelIdeal.Acc.T8 m c))
            (constant (F := Ideal) Cert.KernelIdeal.S_ .f32 0x00000000#32) Cert.KernelIdeal.Facts₀.reducesTo_S8192x1_S_d0_1 Cert.KernelIdeal.Facts₀.h_S_) := by
  rw [Cert.ReferenceIdeal.RefValue.loss_eq, order_eq m c, sumsq_eq m c, summag_eq m c]

end Cert.Bridge

end
-- ==== Proof.lean ====
/-
  The proof of `Cert.Claim`: a Kuramoto coupling kernel against its jnp reference, equal over the extended reals.

  The kernel streams the two 8192 × 8192 matrices (a distance mask D and a coupling matrix K) once, in tiles of 1024
  rows by 512 columns, and accumulates per row, across the sixteen column tiles of a row tile, three sums:
      Σ_k K(i,k) · ((alive i · alive k) · D(i,k)) · sin(phases k − phases i),   Σ_k K(i,k)²,   Σ_k |K(i,k)|.
  The host then reshapes the first into dtheta, sums the other two over the rows, and computes the order parameter
  R = √(mean(cos phases)² + mean(sin phases)²) and the loss (1 − R) + w·√(ΣK²) + w·Σ|K| exactly as the reference does.
  The reference forms the whole 8192 × 8192 product and reduces it along the columns, and sums K² and |K| over all
  index pairs at once. At the ideal values every operation is the exact one on the extended reals and the two
  programs differ only in how the finite sums are grouped — by column tile and then by row on one side, all at once on
  the other — which commutativity and associativity of + settle; no cancellation or distributivity is used, so the
  precondition (finite inputs) is never opened.

  The pieces: what the body leaves per control case (Found), its stored values at a row (Payload), the blocks as
  entries of the arrays (Blocks), the running sums by induction on the grid point (TileSums, Invariant), the result
  arrays as columns of row sums (Final), the host lines after the launch (Tail, HostGlue), the reference read one
  operation at a time (RefValue), and the equality of the two sides (Bridge). The three frames are the generated
  ones (the reference's is its generated run with the results dropped); the idealization rewrote nothing.
-/
import proofs.«116417_j34110630265364_1_alg».proof.Defs
import proofs.«116417_j34110630265364_1_alg».proof.Proof.Gen.Kernel
import proofs.«116417_j34110630265364_1_alg».proof.Proof.Gen.Kernel.Skeleton
import proofs.«116417_j34110630265364_1_alg».proof.Proof.Gen.Kernel.Launch
import proofs.«116417_j34110630265364_1_alg».proof.Proof.Gen.Kernel.Points
import proofs.«116417_j34110630265364_1_alg».proof.Proof.Gen.Kernel.Frame
import proofs.«116417_j34110630265364_1_alg».proof.Proof.Gen.KernelIdeal
import proofs.«116417_j34110630265364_1_alg».proof.Proof.Gen.KernelIdeal.Skeleton
import proofs.«116417_j34110630265364_1_alg».proof.Proof.Gen.KernelIdeal.Launch
import proofs.«116417_j34110630265364_1_alg».proof.Proof.Gen.KernelIdeal.Points
import proofs.«116417_j34110630265364_1_alg».proof.Proof.Gen.KernelIdeal.Frame
import proofs.«116417_j34110630265364_1_alg».proof.Proof.Gen.ReferenceIdeal
import proofs.«116417_j34110630265364_1_alg».proof.Proof.Gen.Pre_finite_inputs
import proofs.«116417_j34110630265364_1_alg».proof.Proof.Gen.ReferenceIdeal.Run
import proofs.«116417_j34110630265364_1_alg».proof.Proof.Gen.ReferenceIdeal.Read
import proofs.«116417_j34110630265364_1_alg».proof.Proof.Bridge
import Idealize.ShloMosaic.Adequacy
import Idealize.ShloMosaic.Init

noncomputable section

open Idealize.ShloMosaic Idealize.ShloMosaic.TcCoe Idealize.SL.Sem

/-! ## The kernel program's run, with its three results named -/

namespace Cert.KernelIdeal.Results

open Cert.KernelIdeal Cert.KernelIdeal.Gen

variable (m : (ℓ : Loc nD τ sig) → Buf (Elt Ideal) ℓ) (ρ : Dev nD → PrngReg)

/-- R, dtheta and the loss as the kernel's program leaves them. -/
abbrev order (c : Dev nD) : Buf (Elt Ideal) ((c.tc : Thread nD τ).loc main_v0_0) :=
  Glue.orderParam (m ((c : Thread nD τ).loc main_arg0)) reducesTo_S8192_S_d0 h_S_
abbrev theta (c : Dev nD) : Buf (Elt Ideal) ((c.tc : Thread nD τ).loc main_v0_1) :=
  shapeCast S8192 (Final.rows (Acc.T6 m c)) shapeCasts_S8192x1_S8192
abbrev loss (c : Dev nD) : Buf (Elt Ideal) ((c.tc : Thread nD τ).loc main_v0_2) :=
  Glue.loss (Glue.orderParam (m ((c : Thread nD τ).loc main_arg0)) reducesTo_S8192_S_d0 h_S_)
    (Host.reduceAdd (F := Ideal) (Final.rows (Acc.T7 m c)) (constant (F := Ideal) S_ .f32 0x00000000#32) reducesTo_S8192x1_S_d0_1 h_S_)
    (Host.reduceAdd (F := Ideal) (Final.rows (Acc.T8 m c)) (constant (F := Ideal) S_ .f32 0x00000000#32) reducesTo_S8192x1_S_d0_1 h_S_)

/-- The generated frame run re-posted: the three results at those values, the four arguments unchanged. The results are
    buffers the lines after the launch write; the two vectors bypass the launch; the two matrices are its inputs. -/
theorem run : θ_run defs (onTc (τ := τ) (main (F := Ideal))) ⟨m, fun _ => 0, ρ⟩ fun r => ∀ c : Dev nD,
      r.2.mem ((c.tc : Thread nD τ).loc main_v0_0) = order m c
      ∧ r.2.mem ((c.tc : Thread nD τ).loc main_v0_1) = theta m c
      ∧ r.2.mem ((c.tc : Thread nD τ).loc main_v0_2) = loss m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨
      ((h c).2 main_v0_0 (Pipeline.mem_restRefs_of main_v0_0 (by decide) (by decide))).trans (Tail.order_eq m c),
      ((h c).2 main_v0_1 (Pipeline.mem_restRefs_of main_v0_1 (by decide) (by decide))).trans (Tail.dtheta_eq m c),
      ((h c).2 main_v0_2 (Pipeline.mem_restRefs_of main_v0_2 (by decide) (by decide))).trans (Tail.loss_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 4).trans (((dats m 0 c).arrAt_in 4 rfl _).trans ((A_eq m c 4).trans (V_main_arg2 m c))),
      ((h c).1 5).trans (((dats m 0 c).arrAt_in 5 rfl _).trans ((A_eq m c 5).trans (V_main_arg3 m c)))⟩)
    (run_main m ρ)

end Cert.KernelIdeal.Results

/-! ## The claims -/

namespace Cert.Proof

theorem frame_k : Cert.frame_Kernel := fun m ρ _ => Cert.Kernel.Gen.frame m ρ
theorem frame_ki : Cert.frame_KernelIdeal := fun m ρ _ => Cert.KernelIdeal.Gen.frame m ρ
/-- The reference has no launch: its frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The ideal pass rewrote no operation. -/
theorem preserves : Cert.preserves_Kernel_KernelIdeal := trivial

/-- From memories that agree on the four arguments both programs end with R, dtheta and the loss at the kernel's
    values: the reference's run states its three results as terms of its arguments, those are rewritten to the kernel's
    arguments, and the terms are the kernel's results (Bridge). -/
theorem algebraic : Cert.algebraic_KernelIdeal_ReferenceIdeal := by
  intro m ρ m' ρ' _ hagree
  refine ⟨fun c => Cert.KernelIdeal.Results.order m c, fun c => Cert.KernelIdeal.Results.theta m c,
    fun c => Cert.KernelIdeal.Results.loss m c, Cert.KernelIdeal.Results.run m ρ, ?_⟩
  refine (θ_run Cert.ReferenceIdeal.defs _ _).mono (fun _ h c => ?_) (Cert.ReferenceIdeal.Value.run (F := Ideal) m' ρ')
  obtain ⟨h24, h14, h34, hr0, hr1, hr2, hr3⟩ := h c
  obtain ⟨g0, g1, g2, g3⟩ := hagree c
  refine ⟨h24.trans ?_, h14.trans ?_, h34.trans ?_, hr0, hr1, hr2, hr3⟩
  · rw [g0]
    exact (Cert.ReferenceIdeal.Read.val_main_v24_eq _).trans (Cert.Bridge.order_eq m c)
  · rw [g0, g1, g2, g3]
    exact (Cert.ReferenceIdeal.Read.val_main_v14_eq _ _ _ _).trans (Cert.Bridge.theta_eq m c)
  · rw [g0, g3]
    exact (Cert.ReferenceIdeal.Read.val_main_v34_eq _ _).trans (Cert.Bridge.loss_eq m c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
